-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x256 : Shape := ⟨2, ![500000, 256]⟩
abbrev S64 : Shape := ⟨1, ![64]⟩
abbrev S64x100 : Shape := ⟨2, ![64, 100]⟩
abbrev S100 : Shape := ⟨1, ![100]⟩
abbrev S100x100 : Shape := ⟨2, ![100, 100]⟩
abbrev S100x1 : Shape := ⟨2, ![100, 1]⟩
abbrev S1 : Shape := ⟨1, ![1]⟩
abbrev S_ : Shape := ⟨0, ![]⟩

class Facts : Prop where
  bcast_S_S500000x256 : S_.BroadcastsInDim S500000x256 (![] : Fin 0 → Fin S500000x256.rank)
  reducesTo_S500000x256_S_d0_1 : S500000x256.ReducesTo [0, 1] S_
  h_S_ : 0 < S_.numel
  bcast_S_S64 : S_.BroadcastsInDim S64 (![] : Fin 0 → Fin S64.rank)
  reducesTo_S64_S_d0 : S64.ReducesTo [0] S_
  bcast_S_S64x100 : S_.BroadcastsInDim S64x100 (![] : Fin 0 → Fin S64x100.rank)
  reducesTo_S64x100_S_d0_1 : S64x100.ReducesTo [0, 1] S_
  bcast_S_S100 : S_.BroadcastsInDim S100 (![] : Fin 0 → Fin S100.rank)
  reducesTo_S100_S_d0 : S100.ReducesTo [0] S_
  bcast_S_S100x100 : S_.BroadcastsInDim S100x100 (![] : Fin 0 → Fin S100x100.rank)
  reducesTo_S100x100_S_d0_1 : S100x100.ReducesTo [0, 1] S_
  bcast_S_S100x1 : S_.BroadcastsInDim S100x1 (![] : Fin 0 → Fin S100x1.rank)
  reducesTo_S100x1_S_d0_1 : S100x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg10 : IVec S64 32) (main_v48 : IVec S_ 1) (main_v50 : IVec S64 1) : IVec S_ 1 :=
  let main_c_19 : IVec S_ 32 := constantI S_ 32 256#32
  let main_v51 : IVec S64 32 := broadcastInDim S64 ![] bcast_S_S64 main_c_19
  let main_v52 : IVec S64 1 := cmpi .slt main_arg10 main_v51
  let main_v53 : IVec S64 1 := andi main_v50 main_v52
  let main_c_20 : IVec S_ 1 := constantI S_ 1 1#1
  let main_v54 : IVec S_ 1 := (fun x v => Host.reduce IntOp.andi x v reducesTo_S64_S_d0 h_S_) main_v53 main_c_20
  let main_v55 : IVec S_ 1 := andi main_v48 main_v54
  main_v55

def fn_part2 {F : FTy → Type} [FloatOps F] (main_arg7 : FVec F S100 .f32) (main_arg8 : FVec F S100x1 .f32) (main_arg9 : FVec F S1 .f32) (main_arg10 : IVec S64 32) (main_v33 : IVec S_ 1) : IVec S_ 1 :=
  let main_v34 : FVec F S100 .f32 := Host.absf main_arg7
  let main_cst_12 : FVec F S_ .f32 := constant S_ .f32 0x7F800000#32
  let main_v35 : FVec F S100 .f32 := broadcastInDim S100 ![] bcast_S_S100 main_cst_12
  let main_v36 : IVec S100 1 := cmpf .olt main_v34 main_v35
  let main_c_13 : IVec S_ 1 := constantI S_ 1 1#1
  let main_v37 : IVec S_ 1 := (fun x v => Host.reduce IntOp.andi x v reducesTo_S100_S_d0 h_S_) main_v36 main_c_13
  let main_v38 : IVec S_ 1 := andi main_v33 main_v37
  let main_v39 : FVec F S100x1 .f32 := Host.absf main_arg8
  let main_cst_14 : FVec F S_ .f32 := constant S_ .f32 0x7F800000#32
  let main_v40 : FVec F S100x1 .f32 := broadcastInDim S100x1 ![] bcast_S_S100x1 main_cst_14
  let main_v41 : IVec S100x1 1 := cmpf .olt main_v39 main_v40
  let main_c_15 : IVec S_ 1 := constantI S_ 1 1#1
  let main_v42 : IVec S_ 1 := (fun x v => Host.reduce IntOp.andi x v reducesTo_S100x1_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_c_18 : IVec S_ 32 := constantI S_ 32 0#32
  let main_v49 : IVec S64 32 := broadcastInDim S64 ![] bcast_S_S64 main_c_18
  let main_v50 : IVec S64 1 := cmpi .sge main_arg10 main_v49
  fn_part3 (F := F) main_arg10 main_v48 main_v50

def fn_part1 {F : FTy → Type} [FloatOps F] (main_arg4 : FVec F S100x100 .f32) (main_arg5 : FVec F S100 .f32) (main_arg6 : FVec F S100x100 .f32) (main_arg7 : FVec F S100 .f32) (main_arg8 : FVec F S100x1 .f32) (main_arg9 : FVec F S1 .f32) (main_arg10 : IVec S64 32) (main_v13 : IVec S_ 1) (main_v16 : IVec S100 1) : IVec S_ 1 :=
  let main_c_5 : IVec S_ 1 := constantI S_ 1 1#1
  let main_v17 : IVec S_ 1 := (fun x v => Host.reduce IntOp.andi x v reducesTo_S100_S_d0 h_S_) main_v16 main_c_5
  let main_v18 : IVec S_ 1 := andi main_v13 main_v17
  let main_v19 : FVec F S100x100 .f32 := Host.absf main_arg4
  let main_cst_6 : FVec F S_ .f32 := constant S_ .f32 0x7F800000#32
  let main_v20 : FVec F S100x100 .f32 := broadcastInDim S100x100 ![] bcast_S_S100x100 main_cst_6
  let main_v21 : IVec S100x100 1 := cmpf .olt main_v19 main_v20
  let main_c_7 : IVec S_ 1 := constantI S_ 1 1#1
  let main_v22 : IVec S_ 1 := (fun x v => Host.reduce IntOp.andi x v reducesTo_S100x100_S_d0_1 h_S_) main_v21 main_c_7
  let main_v23 : IVec S_ 1 := andi main_v18 main_v22
  let main_v24 : FVec F S100 .f32 := Host.absf main_arg5
  let main_cst_8 : FVec F S_ .f32 := constant S_ .f32 0x7F800000#32
  let main_v25 : FVec F S100 .f32 := broadcastInDim S100 ![] bcast_S_S100 main_cst_8
  let main_v26 : IVec S100 1 := cmpf .olt main_v24 main_v25
  let main_c_9 : IVec S_ 1 := constantI S_ 1 1#1
  let main_v27 : IVec S_ 1 := (fun x v => Host.reduce IntOp.andi x v reducesTo_S100_S_d0 h_S_) main_v26 main_c_9
  let main_v28 : IVec S_ 1 := andi main_v23 main_v27
  let main_v29 : FVec F S100x100 .f32 := Host.absf main_arg6
  let main_cst_10 : FVec F S_ .f32 := constant S_ .f32 0x7F800000#32
  let main_v30 : FVec F S100x100 .f32 := broadcastInDim S100x100 ![] bcast_S_S100x100 main_cst_10
  let main_v31 : IVec S100x100 1 := cmpf .olt main_v29 main_v30
  let main_c_11 : IVec S_ 1 := constantI S_ 1 1#1
  let main_v32 : IVec S_ 1 := (fun x v => Host.reduce IntOp.andi x v reducesTo_S100x100_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S500000x256 .f32) (main_arg1 : FVec F S64 .f32) (main_arg2 : FVec F S64x100 .f32) (main_arg3 : FVec F S100 .f32) (main_arg4 : FVec F S100x100 .f32) (main_arg5 : FVec F S100 .f32) (main_arg6 : FVec F S100x100 .f32) (main_arg7 : FVec F S100 .f32) (main_arg8 : FVec F S100x1 .f32) (main_arg9 : FVec F S1 .f32) (main_arg10 : IVec S64 32) (main_arg11 : IVec S64 32) (main_arg12 : IVec S64 32) : IVec S_ 1 :=
  let main_v0 : FVec F S500000x256 .f32 := Host.absf main_arg0
  let main_cst : FVec F S_ .f32 := constant S_ .f32 0x7F800000#32
  let main_v1 : FVec F S500000x256 .f32 := broadcastInDim S500000x256 ![] bcast_S_S500000x256 main_cst
  let main_v2 : IVec S500000x256 1 := cmpf .olt main_v0 main_v1
  let main_c : IVec S_ 1 := constantI S_ 1 1#1
  let main_v3 : IVec S_ 1 := (fun x v => Host.reduce IntOp.andi x v reducesTo_S500000x256_S_d0_1 h_S_) main_v2 main_c
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S64x100 .f32 := Host.absf main_arg2
  let main_cst_2 : FVec F S_ .f32 := constant S_ .f32 0x7F800000#32
  let main_v10 : FVec F S64x100 .f32 := broadcastInDim S64x100 ![] bcast_S_S64x100 main_cst_2
  let main_v11 : IVec S64x100 1 := cmpf .olt main_v9 main_v10
  let main_c_3 : IVec S_ 1 := constantI S_ 1 1#1
  let main_v12 : IVec S_ 1 := (fun x v => Host.reduce IntOp.andi x v reducesTo_S64x100_S_d0_1 h_S_) main_v11 main_c_3
  let main_v13 : IVec S_ 1 := andi main_v8 main_v12
  let main_v14 : FVec F S100 .f32 := Host.absf main_arg3
  let main_cst_4 : FVec F S_ .f32 := constant S_ .f32 0x7F800000#32
  let main_v15 : FVec F S100 .f32 := broadcastInDim S100 ![] bcast_S_S100 main_cst_4
  let main_v16 : IVec S100 1 := cmpf .olt main_v14 main_v15
  fn_part1 (F := F) main_arg4 main_arg5 main_arg6 main_arg7 main_arg8 main_arg9 main_arg10 main_v13 main_v16
-- ==== Kernel.lean ====
abbrev S500000x256 : Shape := ⟨2, ![500000, 256]⟩
abbrev S64 : Shape := ⟨1, ![64]⟩
abbrev S64x100 : Shape := ⟨2, ![64, 100]⟩
abbrev S100 : Shape := ⟨1, ![100]⟩
abbrev S100x100 : Shape := ⟨2, ![100, 100]⟩
abbrev S100x1 : Shape := ⟨2, ![100, 1]⟩
abbrev S1 : Shape := ⟨1, ![1]⟩
abbrev S_ : Shape := ⟨0, ![]⟩
abbrev S64x1 : Shape := ⟨2, ![64, 1]⟩
abbrev S1x256 : Shape := ⟨2, ![1, 256]⟩
abbrev S64x256 : Shape := ⟨2, ![64, 256]⟩
abbrev S256x64 : Shape := ⟨2, ![256, 64]⟩
abbrev S256x100 : Shape := ⟨2, ![256, 100]⟩
abbrev S256x128 : Shape := ⟨2, ![256, 128]⟩
abbrev S1x100 : Shape := ⟨2, ![1, 100]⟩
abbrev S1x128 : Shape := ⟨2, ![1, 128]⟩
abbrev S128x128 : Shape := ⟨2, ![128, 128]⟩
abbrev S128x1 : Shape := ⟨2, ![128, 1]⟩
abbrev S1x1 : Shape := ⟨2, ![1, 1]⟩
abbrev S500000x1 : Shape := ⟨2, ![500000, 1]⟩
abbrev S5000x256 : Shape := ⟨2, ![5000, 256]⟩
abbrev S5000x1 : Shape := ⟨2, ![5000, 1]⟩
abbrev S5000x128 : Shape := ⟨2, ![5000, 128]⟩

abbrev nBuf : Space → Nat
  | .hbm => 64
  | .vmem => 12
  | .smem => 0
  | _ => 0

abbrev bufTy : (tb : Table) → Fin (tcTables nBuf tb) → BufTy
  | .hbm, ⟨0, _⟩ => ⟨S500000x256, .f32⟩
  | .hbm, ⟨1, _⟩ => ⟨S64, .f32⟩
  | .hbm, ⟨2, _⟩ => ⟨S64x100, .f32⟩
  | .hbm, ⟨3, _⟩ => ⟨S100, .f32⟩
  | .hbm, ⟨4, _⟩ => ⟨S100x100, .f32⟩
  | .hbm, ⟨5, _⟩ => ⟨S100, .f32⟩
  | .hbm, ⟨6, _⟩ => ⟨S100x100, .f32⟩
  | .hbm, ⟨7, _⟩ => ⟨S100, .f32⟩
  | .hbm, ⟨8, _⟩ => ⟨S100x1, .f32⟩
  | .hbm, ⟨9, _⟩ => ⟨S1, .f32⟩
  | .hbm, ⟨10, _⟩ => ⟨S64, .i32⟩
  | .hbm, ⟨11, _⟩ => ⟨S64, .i32⟩
  | .hbm, ⟨12, _⟩ => ⟨S64, .i32⟩
  | .hbm, ⟨13, _⟩ => ⟨S_, .i32⟩
  | .hbm, ⟨14, _⟩ => ⟨S64, .i32⟩
  | .hbm, ⟨15, _⟩ => ⟨S64, .i1⟩
  | .hbm, ⟨16, _⟩ => ⟨S_, .i32⟩
  | .hbm, ⟨17, _⟩ => ⟨S64, .i32⟩
  | .hbm, ⟨18, _⟩ => ⟨S64, .i32⟩
  | .hbm, ⟨19, _⟩ => ⟨S64, .i32⟩
  | .hbm, ⟨20, _⟩ => ⟨S64x1, .i32⟩
  | .hbm, ⟨21, _⟩ => ⟨S64, .f32⟩
  | .hbm, ⟨22, _⟩ => ⟨S64, .f32⟩
  | .hbm, ⟨23, _⟩ => ⟨S64, .f32⟩
  | .hbm, ⟨24, _⟩ => ⟨S_, .f32⟩
  | .hbm, ⟨25, _⟩ => ⟨S64, .f32⟩
  | .hbm, ⟨26, _⟩ => ⟨S64, .f32⟩
  | .hbm, ⟨27, _⟩ => ⟨S64x1, .i32⟩
  | .hbm, ⟨28, _⟩ => ⟨S1x256, .i32⟩
  | .hbm, ⟨29, _⟩ => ⟨S64x256, .i32⟩
  | .hbm, ⟨30, _⟩ => ⟨S64x256, .i32⟩
  | .hbm, ⟨31, _⟩ => ⟨S64x256, .i1⟩
  | .hbm, ⟨32, _⟩ => ⟨S64x256, .f32⟩
  | .hbm, ⟨33, _⟩ => ⟨S64x1, .f32⟩
  | .hbm, ⟨34, _⟩ => ⟨S64x256, .f32⟩
  | .hbm, ⟨35, _⟩ => ⟨S64x256, .f32⟩
  | .hbm, ⟨36, _⟩ => ⟨S256x64, .f32⟩
  | .hbm, ⟨37, _⟩ => ⟨S256x100, .f32⟩
  | .hbm, ⟨38, _⟩ => ⟨S_, .i32⟩
  | .hbm, ⟨39, _⟩ => ⟨S_, .f32⟩
  | .hbm, ⟨40, _⟩ => ⟨S256x128, .f32⟩
  | .hbm, ⟨41, _⟩ => ⟨S1x100, .f32⟩
  | .hbm, ⟨42, _⟩ => ⟨S_, .i32⟩
  | .hbm, ⟨43, _⟩ => ⟨S_, .f32⟩
  | .hbm, ⟨44, _⟩ => ⟨S1x128, .f32⟩
  | .hbm, ⟨45, _⟩ => ⟨S_, .i32⟩
  | .hbm, ⟨46, _⟩ => ⟨S_, .f32⟩
  | .hbm, ⟨47, _⟩ => ⟨S128x128, .f32⟩
  | .hbm, ⟨48, _⟩ => ⟨S1x100, .f32⟩
  | .hbm, ⟨49, _⟩ => ⟨S_, .i32⟩
  | .hbm, ⟨50, _⟩ => ⟨S_, .f32⟩
  | .hbm, ⟨51, _⟩ => ⟨S1x128, .f32⟩
  | .hbm, ⟨52, _⟩ => ⟨S_, .i32⟩
  | .hbm, ⟨53, _⟩ => ⟨S_, .f32⟩
  | .hbm, ⟨54, _⟩ => ⟨S128x128, .f32⟩
  | .hbm, ⟨55, _⟩ => ⟨S1x100, .f32⟩
  | .hbm, ⟨56, _⟩ => ⟨S_, .i32⟩
  | .hbm, ⟨57, _⟩ => ⟨S_, .f32⟩
  | .hbm, ⟨58, _⟩ => ⟨S1x128, .f32⟩
  | .hbm, ⟨59, _⟩ => ⟨S_, .i32⟩
  | .hbm, ⟨60, _⟩ => ⟨S_, .f32⟩
  | .hbm, ⟨61, _⟩ => ⟨S128x1, .f32⟩
  | .hbm, ⟨62, _⟩ => ⟨S1x1, .f32⟩
  | .hbm, ⟨63, _⟩ => ⟨S500000x1, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S128x1, .f32⟩
  | .local _ .vmem, ⟨9, _⟩ => ⟨S1x1, .f32⟩
  | .local _ .vmem, ⟨10, _⟩ => ⟨S5000x1, .f32⟩
  | .local _ .vmem, ⟨11, _⟩ => ⟨S5000x1, .f32⟩
  | _, _ => ⟨S500000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_call0_cst : Ref sig .tc := ⟨.hbm, 24, rfl⟩
abbrev main_call0_v0 : Ref sig .tc := ⟨.hbm, 25, rfl⟩
abbrev main_v9 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_c_1 : Ref sig .tc := ⟨.hbm, 38, rfl⟩
abbrev main_call2_v0 : Ref sig .tc := ⟨.hbm, 39, rfl⟩
abbrev main_v16 : Ref sig .tc := ⟨.hbm, 40, rfl⟩
abbrev main_v17 : Ref sig .tc := ⟨.hbm, 41, rfl⟩
abbrev main_c_2 : Ref sig .tc := ⟨.hbm, 42, rfl⟩
abbrev main_call3_v0 : Ref sig .tc := ⟨.hbm, 43, rfl⟩
abbrev main_v18 : Ref sig .tc := ⟨.hbm, 44, rfl⟩
abbrev main_c_3 : Ref sig .tc := ⟨.hbm, 45, rfl⟩
abbrev main_call4_v0 : Ref sig .tc := ⟨.hbm, 46, rfl⟩
abbrev main_v19 : Ref sig .tc := ⟨.hbm, 47, rfl⟩
abbrev main_v20 : Ref sig .tc := ⟨.hbm, 48, rfl⟩
abbrev main_c_4 : Ref sig .tc := ⟨.hbm, 49, rfl⟩
abbrev main_call5_v0 : Ref sig .tc := ⟨.hbm, 50, rfl⟩
abbrev main_v21 : Ref sig .tc := ⟨.hbm, 51, rfl⟩
abbrev main_c_5 : Ref sig .tc := ⟨.hbm, 52, rfl⟩
abbrev main_call6_v0 : Ref sig .tc := ⟨.hbm, 53, rfl⟩
abbrev main_v22 : Ref sig .tc := ⟨.hbm, 54, rfl⟩
abbrev main_v23 : Ref sig .tc := ⟨.hbm, 55, rfl⟩
abbrev main_c_6 : Ref sig .tc := ⟨.hbm, 56, rfl⟩
abbrev main_call7_v0 : Ref sig .tc := ⟨.hbm, 57, rfl⟩
abbrev main_v24 : Ref sig .tc := ⟨.hbm, 58, rfl⟩
abbrev main_c_7 : Ref sig .tc := ⟨.hbm, 59, rfl⟩
abbrev main_call8_v0 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S64 : S_.BroadcastsInDim S64 (![] : Fin 0 → Fin S64.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  bcast_S1x256_S64x256_0_1 : S1x256.BroadcastsInDim S64x256 (![0, 1] : Fin 2 → Fin S64x256.rank)
  transposes_S64x256_S256x64_1_0 : S64x256.Transposes [1, 0] S256x64
  pads_S256x100_S256x128_000_0280 : S256x100.Pads (![0, 0] : Fin 2 → Nat) ![0, 28] ![0, 0] S256x128
  h_S_ : 0 < S_.numel
  shapeCasts_S100_S1x100 : S100.ShapeCasts S1x100
  pads_S1x100_S1x128_000_0280 : S1x100.Pads (![0, 0] : Fin 2 → Nat) ![0, 28] ![0, 0] S1x128
  pads_S100x100_S128x128_0280_0280 : S100x100.Pads (![0, 0] : Fin 2 → Nat) ![28, 28] ![0, 0] S128x128
  pads_S100x1_S128x1_0280_000 : S100x1.Pads (![0, 0] : Fin 2 → Nat) ![28, 0] ![0, 0] S128x1
  shapeCasts_S1_S1x1 : S1.ShapeCasts S1x1
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  gather_S64_S64x1_S64_n_0_n_n_0_1_1_wf : GatherDims.WF S64 S64x1 S64 [] [0] [] [0] [] 1 ![1]
  dot_S256x64_S64x100_S256x100_1_0_0_1_n_n_wf : DotDims.WF S256x64 S64x100 S256x100 [1] [0] [0] [1] [] []
  dot_S5000x256_S256x128_S5000x128_1_0_0_1_n_n_wf : DotDims.WF S5000x256 S256x128 S5000x128 [1] [0] [0] [1] [] []
  dot_S5000x128_S128x128_S5000x128_1_0_0_1_n_n_wf : DotDims.WF S5000x128 S128x128 S5000x128 [1] [0] [0] [1] [] []
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S500000x256.size a
  hwx0_0 : ∀ i : grid0.Coords, EltTy.bits .f32 = 32 ∨ (Rect.block (s := S500000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x1.size a ≤ S128x1.size a
  hwx0_7 : ∀ i : grid0.Coords, EltTy.bits .f32 = 32 ∨ (Rect.block (s := S128x1) S128x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x1.size a ≤ S500000x1.size a
  hwx0_9 : ∀ i : grid0.Coords, EltTy.bits .f32 = 32 ∨ (Rect.block (s := S500000x1) S5000x1.size (cc0_transform_9 i) (hinb0_9 i)).WholeWords (EltTy.packing .f32)

variable [Facts₀]

def gather_S64_S64x1_S64_n_0_n_n_0_1_1 : GatherDims S64 S64x1 S64 where
  offsetDims := []
  collapsedSliceDims := [0]
  operandBatchingDims := []
  startIndicesBatchingDims := []
  startIndexMap := [0]
  indexVectorDim := 1
  sliceSizes := ![1]
  wf := gather_S64_S64x1_S64_n_0_n_n_0_1_1_wf
def dot_S256x64_S64x100_S256x100_1_0_0_1_n_n : DotDims S256x64 S64x100 S256x100 where
  lhsContracting := [1]
  rhsContracting := [0]
  lhsNonContracting := [0]
  rhsNonContracting := [1]
  lhsBatch := []
  rhsBatch := []
  wf := dot_S256x64_S64x100_S256x100_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25) S128x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v26) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v27) S5000x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S500000x256 : Shape := ⟨2, ![500000, 256]⟩
abbrev S64 : Shape := ⟨1, ![64]⟩
abbrev S64x100 : Shape := ⟨2, ![64, 100]⟩
abbrev S100 : Shape := ⟨1, ![100]⟩
abbrev S100x100 : Shape := ⟨2, ![100, 100]⟩
abbrev S100x1 : Shape := ⟨2, ![100, 1]⟩
abbrev S1 : Shape := ⟨1, ![1]⟩
abbrev S_ : Shape := ⟨0, ![]⟩
abbrev S64x1 : Shape := ⟨2, ![64, 1]⟩
abbrev S500000x64 : Shape := ⟨2, ![500000, 64]⟩
abbrev S1x64 : Shape := ⟨2, ![1, 64]⟩
abbrev S500000x100 : Shape := ⟨2, ![500000, 100]⟩
abbrev S1x100 : Shape := ⟨2, ![1, 100]⟩
abbrev S500000x1 : Shape := ⟨2, ![500000, 1]⟩
abbrev S1x1 : Shape := ⟨2, ![1, 1]⟩

abbrev nBuf : Space → Nat
  | .hbm => 64
  | .vmem => 0
  | .smem => 0
  | _ => 0

abbrev bufTy : (tb : Table) → Fin (tcTables nBuf tb) → BufTy
  | .hbm, ⟨0, _⟩ => ⟨S500000x256, .f32⟩
  | .hbm, ⟨1, _⟩ => ⟨S64, .f32⟩
  | .hbm, ⟨2, _⟩ => ⟨S64x100, .f32⟩
  | .hbm, ⟨3, _⟩ => ⟨S100, .f32⟩
  | .hbm, ⟨4, _⟩ => ⟨S100x100, .f32⟩
  | .hbm, ⟨5, _⟩ => ⟨S100, .f32⟩
  | .hbm, ⟨6, _⟩ => ⟨S100x100, .f32⟩
  | .hbm, ⟨7, _⟩ => ⟨S100, .f32⟩
  | .hbm, ⟨8, _⟩ => ⟨S100x1, .f32⟩
  | .hbm, ⟨9, _⟩ => ⟨S1, .f32⟩
  | .hbm, ⟨10, _⟩ => ⟨S64, .i32⟩
  | .hbm, ⟨11, _⟩ => ⟨S64, .i32⟩
  | .hbm, ⟨12, _⟩ => ⟨S64, .i32⟩
  | .hbm, ⟨13, _⟩ => ⟨S_, .i32⟩
  | .hbm, ⟨14, _⟩ => ⟨S64, .i32⟩
  | .hbm, ⟨15, _⟩ => ⟨S64, .i1⟩
  | .hbm, ⟨16, _⟩ => ⟨S_, .i32⟩
  | .hbm, ⟨17, _⟩ => ⟨S64, .i32⟩
  | .hbm, ⟨18, _⟩ => ⟨S64, .i32⟩
  | .hbm, ⟨19, _⟩ => ⟨S64, .i32⟩
  | .hbm, ⟨20, _⟩ => ⟨S64x1, .i32⟩
  | .hbm, ⟨21, _⟩ => ⟨S64, .f32⟩
  | .hbm, ⟨22, _⟩ => ⟨S64, .f32⟩
  | .hbm, ⟨23, _⟩ => ⟨S64, .f32⟩
  | .hbm, ⟨24, _⟩ => ⟨S_, .f32⟩
  | .hbm, ⟨25, _⟩ => ⟨S64, .f32⟩
  | .hbm, ⟨26, _⟩ => ⟨S64, .f32⟩
  | .hbm, ⟨27, _⟩ => ⟨S_, .i32⟩
  | .hbm, ⟨28, _⟩ => ⟨S64, .i32⟩
  | .hbm, ⟨29, _⟩ => ⟨S64, .i1⟩
  | .hbm, ⟨30, _⟩ => ⟨S_, .i32⟩
  | .hbm, ⟨31, _⟩ => ⟨S64, .i32⟩
  | .hbm, ⟨32, _⟩ => ⟨S64, .i32⟩
  | .hbm, ⟨33, _⟩ => ⟨S64, .i32⟩
  | .hbm, ⟨34, _⟩ => ⟨S64x1, .i32⟩
  | .hbm, ⟨35, _⟩ => ⟨S500000x64, .f32⟩
  | .hbm, ⟨36, _⟩ => ⟨S1x64, .f32⟩
  | .hbm, ⟨37, _⟩ => ⟨S500000x64, .f32⟩
  | .hbm, ⟨38, _⟩ => ⟨S500000x64, .f32⟩
  | .hbm, ⟨39, _⟩ => ⟨S500000x100, .f32⟩
  | .hbm, ⟨40, _⟩ => ⟨S1x100, .f32⟩
  | .hbm, ⟨41, _⟩ => ⟨S500000x100, .f32⟩
  | .hbm, ⟨42, _⟩ => ⟨S500000x100, .f32⟩
  | .hbm, ⟨43, _⟩ => ⟨S_, .f32⟩
  | .hbm, ⟨44, _⟩ => ⟨S500000x100, .f32⟩
  | .hbm, ⟨45, _⟩ => ⟨S500000x100, .f32⟩
  | .hbm, ⟨46, _⟩ => ⟨S500000x100, .f32⟩
  | .hbm, ⟨47, _⟩ => ⟨S1x100, .f32⟩
  | .hbm, ⟨48, _⟩ => ⟨S500000x100, .f32⟩
  | .hbm, ⟨49, _⟩ => ⟨S500000x100, .f32⟩
  | .hbm, ⟨50, _⟩ => ⟨S_, .f32⟩
  | .hbm, ⟨51, _⟩ => ⟨S500000x100, .f32⟩
  | .hbm, ⟨52, _⟩ => ⟨S500000x100, .f32⟩
  | .hbm, ⟨53, _⟩ => ⟨S500000x100, .f32⟩
  | .hbm, ⟨54, _⟩ => ⟨S1x100, .f32⟩
  | .hbm, ⟨55, _⟩ => ⟨S500000x100, .f32⟩
  | .hbm, ⟨56, _⟩ => ⟨S500000x100, .f32⟩
  | .hbm, ⟨57, _⟩ => ⟨S_, .f32⟩
  | .hbm, ⟨58, _⟩ => ⟨S500000x100, .f32⟩
  | .hbm, ⟨59, _⟩ => ⟨S500000x100, .f32⟩
  | .hbm, ⟨60, _⟩ => ⟨S500000x1, .f32⟩
  | .hbm, ⟨61, _⟩ => ⟨S1x1, .f32⟩
  | .hbm, ⟨62, _⟩ => ⟨S500000x1, .f32⟩
  | .hbm, ⟨63, _⟩ => ⟨S500000x1, .f32⟩
  | _, _ => ⟨S500000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_call0_cst : Ref sig .tc := ⟨.hbm, 24, rfl⟩
abbrev main_call0_v0 : Ref sig .tc := ⟨.hbm, 25, rfl⟩
abbrev main_v9 : Ref sig .tc := ⟨.hbm, 26, rfl⟩
abbrev main_c_1 : Ref sig .tc := ⟨.hbm, 27, rfl⟩
abbrev main_v10 : Ref sig .tc := ⟨.hbm, 28, rfl⟩
abbrev main_v11 : Ref sig .tc := ⟨.hbm, 29, rfl⟩
abbrev main_c_2 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_call1_cst : Ref sig .tc := ⟨.hbm, 43, rfl⟩
abbrev main_call1_v0 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_call2_cst : Ref sig .tc := ⟨.hbm, 50, rfl⟩
abbrev main_call2_v0 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_call3_cst : Ref sig .tc := ⟨.hbm, 57, rfl⟩
abbrev main_call3_v0 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩

abbrev nD : Nat := 1
abbrev τ : Topo := Topo.v7x

variable {F : FTy → Type} [FloatOps F]

class Facts₀ : Prop where
  bcast_S_S64 : S_.BroadcastsInDim S64 (![] : Fin 0 → Fin S64.rank)
  bcast_S64_S64x1_0 : S64.BroadcastsInDim S64x1 (![0] : Fin 1 → Fin S64x1.rank)
  bcast_S64_S1x64_1 : S64.BroadcastsInDim S1x64 (![1] : Fin 1 → Fin S1x64.rank)
  bcast_S1x64_S500000x64_0_1 : S1x64.BroadcastsInDim S500000x64 (![0, 1] : Fin 2 → Fin S500000x64.rank)
  bcast_S100_S1x100_1 : S100.BroadcastsInDim S1x100 (![1] : Fin 1 → Fin S1x100.rank)
  bcast_S1x100_S500000x100_0_1 : S1x100.BroadcastsInDim S500000x100 (![0, 1] : Fin 2 → Fin S500000x100.rank)
  bcast_S_S500000x100 : S_.BroadcastsInDim S500000x100 (![] : Fin 0 → Fin S500000x100.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  gather_S64_S64x1_S64_n_0_n_n_0_1_1_wf : GatherDims.WF S64 S64x1 S64 [] [0] [] [0] [] 1 ![1]
  gather_S500000x256_S64x1_S500000x64_0_1_n_n_1_1_5000001_wf : GatherDims.WF S500000x256 S64x1 S500000x64 [0] [1] [] [1] [] 1 ![500000, 1]
  dot_S500000x64_S64x100_S500000x100_1_0_0_1_n_n_wf : DotDims.WF S500000x64 S64x100 S500000x100 [1] [0] [0] [1] [] []
  dot_S500000x100_S100x100_S500000x100_1_0_0_1_n_n_wf : DotDims.WF S500000x100 S100x100 S500000x100 [1] [0] [0] [1] [] []
  dot_S500000x100_S100x1_S500000x1_1_0_0_1_n_n_wf : DotDims.WF S500000x100 S100x1 S500000x1 [1] [0] [0] [1] [] []

variable [Facts₀]

def gather_S64_S64x1_S64_n_0_n_n_0_1_1 : GatherDims S64 S64x1 S64 where
  offsetDims := []
  collapsedSliceDims := [0]
  operandBatchingDims := []
  startIndicesBatchingDims := []
  startIndexMap := [0]
  indexVectorDim := 1
  sliceSizes := ![1]
  wf := gather_S64_S64x1_S64_n_0_n_n_0_1_1_wf
def gather_S500000x256_S64x1_S500000x64_0_1_n_n_1_1_5000001 : GatherDims S500000x256 S64x1 S500000x64 where
  offsetDims := [0]
  collapsedSliceDims := [1]
  operandBatchingDims := []
  startIndicesBatchingDims := []
  startIndexMap := [1]
  indexVectorDim := 1
  sliceSizes := ![500000, 1]
  wf := gather_S500000x256_S64x1_S500000x64_0_1_n_n_1_1_5000001_wf
def dot_S500000x64_S64x100_S500000x100_1_0_0_1_n_n : DotDims S500000x64 S64x100 S500000x100 where
  lhsContracting := [1]
  rhsContracting := [0]
  lhsNonContracting := [0]
  rhsNonContracting := [1]
  lhsBatch := []
  rhsBatch := []
  wf := dot_S500000x64_S64x100_S500000x100_1_0_0_1_n_n_wf
def dot_S500000x100_S100x100_S500000x100_1_0_0_1_n_n : DotDims S500000x100 S100x100 S500000x100 where
  lhsContracting := [1]
  rhsContracting := [0]
  lhsNonContracting := [0]
  rhsNonContracting := [1]
  lhsBatch := []
  rhsBatch := []
  wf := dot_S500000x100_S100x100_S500000x100_1_0_0_1_n_n_wf
def dot_S500000x100_S100x1_S500000x1_1_0_0_1_n_n : DotDims S500000x100 S100x1 S500000x1 where
  lhsContracting := [1]
  rhsContracting := [0]
  lhsNonContracting := [0]
  rhsNonContracting := [1]
  lhsBatch := []
  rhsBatch := []
  wf := dot_S500000x100_S100x1_S500000x1_1_0_0_1_n_n_wf

class Facts : Prop extends Facts₀ where

variable [Facts]
-- ==== Proof.KernelHost.lean ====
/-
  What the region finds in the arrays its windows stage: each is a composition of host operations of the
  program's arguments — the fused first-layer matrix (a contraction of the gated indicator of column positions
  with the first layer's weights, zero-padded to 128 columns), and the remaining weights and biases zero-padded
  to the hidden width 128.
-/
import proofs.«421247_j9603546873894_3_alg».proof.Proof.Gen.KernelIdeal.Frame
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.HostSide

open Cert.KernelIdeal Cert.KernelIdeal.Gen Idealize.ShloMosaic Idealize.ShloMosaic.TcCoe Idealize.SL.Sem
open Idealize.ShloMosaic.StableHlo

/-! ## The host operations' terms -/

/-- The gate of each edge: the edge's weight (taken at its position, negative positions counted from the end)
    times its direction, rectified. -/
def gateT (x1 : FVec Ideal S64 .f32) (x11 x12 : IVec S64 32) : FVec Ideal S64 .f32 :=
  maximumf
    (mulf
      (Host.gather gather_S64_S64x1_S64_n_0_n_n_0_1_1 x1
        (broadcastInDim S64x1 ![0] bcast_S64_S64x1_0
          (select (cmpi .slt x12 (broadcastInDim S64 ![] bcast_S_S64 (constantI S_ 32 0#32)))
            (addi x12 (broadcastInDim S64 ![] bcast_S_S64 (constantI S_ 32 64#32))) x12)))
      (sitofp .f32 x11))
    (broadcastInDim S64 ![] bcast_S_S64 (constant S_ .f32 0x00000000#32))

/-- The indicator of column positions, edge by column: 1 where the edge's position is the column. -/
def onehotT (x10 : IVec S64 32) : FVec Ideal S64x256 .f32 :=
  uitofp .f32
    (cmpi .eq
      (broadcastInDim S64x256 ![0, 1] bcast_S64x1_S64x256_0_1 (broadcastInDim S64x1 ![0] bcast_S64_S64x1_0 x10))
      (broadcastInDim S64x256 ![0, 1] bcast_S1x256_S64x256_0_1 (iotaInDim S1x256 32 1)))

/-- The padding value: the integer zero converted. -/
def zeroT : FVec Ideal S_ .f32 := sitofp .f32 (constantI S_ 32 0#32)

/-- The fused first-layer matrix, 256 × 128. -/
def m1T (x1 : FVec Ideal S64 .f32) (x2 : FVec Ideal S64x100 .f32) (x10 x11 x12 : IVec S64 32) : FVec Ideal S256x128 .f32 :=
  pad S256x128 ![0, 0] ![0, 28] ![0, 0]
    (Host.dotGeneral dot_S256x64_S64x100_S256x100_1_0_0_1_n_n none
      (transpose S256x64 [1, 0]
        (mulf (onehotT x10)
          (broadcastInDim S64x256 ![0, 1] bcast_S64x1_S64x256_0_1
            (broadcastInDim S64x1 ![0] bcast_S64_S64x1_0 (gateT x1 x11 x12))))
        transposes_S64x256_S256x64_1_0)
      x2)
    zeroT pads_S256x100_S256x128_000_0280 h_S_

/-- A bias as a padded 1 × 128 row. -/
def biasT (x : FVec Ideal S100 .f32) : FVec Ideal S1x128 .f32 :=
  pad S1x128 ![0, 0] ![0, 28] ![0, 0] (shapeCast S1x100 x shapeCasts_S100_S1x100) zeroT pads_S1x100_S1x128_000_0280 h_S_

/-- A hidden layer's weights padded to 128 × 128. -/
def hiddenT (x : FVec Ideal S100x100 .f32) : FVec Ideal S128x128 .f32 :=
  pad S128x128 ![0, 0] ![28, 28] ![0, 0] x zeroT pads_S100x100_S128x128_0280_0280 h_S_

/-- The last layer's weights padded to 128 × 1. -/
def lastT (x : FVec Ideal S100x1 .f32) : FVec Ideal S128x1 .f32 :=
  pad S128x1 ![0, 0] ![28, 0] ![0, 0] x zeroT pads_S100x1_S128x1_0280_000 h_S_

/-- The last bias as a 1 × 1 array. -/
def b4T (x : FVec Ideal S1 .f32) : FVec Ideal S1x1 .f32 := shapeCast S1x1 x shapeCasts_S1_S1x1

variable (m : (ℓ : Loc nD τ sig) → Buf (Elt Ideal) ℓ)

/-! ## The arrays the windows stage -/

set_option maxHeartbeats 1000000 in
theorem V_m1 (c : Dev nD) : (V m c main_v16 : S256x128.Idx → EReal)
    = m1T (m (c, Proc.devRef .tc main_arg1)) (m (c, Proc.devRef .tc main_arg2)) (m (c, Proc.devRef .tc main_arg10))
        (m (c, Proc.devRef .tc main_arg11)) (m (c, Proc.devRef .tc main_arg12)) := by
  dsimp only [Gen.V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, List.flatten_cons, List.flatten_nil, List.append_nil, List.cons_append, List.nil_append]
  after_results
  rfl

set_option maxHeartbeats 1000000 in
theorem V_b1 (c : Dev nD) : (V m c main_v18 : S1x128.Idx → EReal) = biasT (m (c, Proc.devRef .tc main_arg3)) := by
  dsimp only [Gen.V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, List.flatten_cons, List.flatten_nil, List.append_nil, List.cons_append, List.nil_append]
  after_results
  rfl

set_option maxHeartbeats 1000000 in
theorem V_w2 (c : Dev nD) : (V m c main_v19 : S128x128.Idx → EReal) = hiddenT (m (c, Proc.devRef .tc main_arg4)) := by
  dsimp only [Gen.V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, List.flatten_cons, List.flatten_nil, List.append_nil, List.cons_append, List.nil_append]
  after_results
  rfl

set_option maxHeartbeats 1000000 in
theorem V_b2 (c : Dev nD) : (V m c main_v21 : S1x128.Idx → EReal) = biasT (m (c, Proc.devRef .tc main_arg5)) := by
  dsimp only [Gen.V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, List.flatten_cons, List.flatten_nil, List.append_nil, List.cons_append, List.nil_append]
  after_results
  rfl

set_option maxHeartbeats 1000000 in
theorem V_w3 (c : Dev nD) : (V m c main_v22 : S128x128.Idx → EReal) = hiddenT (m (c, Proc.devRef .tc main_arg6)) := by
  dsimp only [Gen.V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, List.flatten_cons, List.flatten_nil, List.append_nil, List.cons_append, List.nil_append]
  after_results
  rfl

set_option maxHeartbeats 1000000 in
theorem V_b3 (c : Dev nD) : (V m c main_v24 : S1x128.Idx → EReal) = biasT (m (c, Proc.devRef .tc main_arg7)) := by
  dsimp only [Gen.V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, List.flatten_cons, List.flatten_nil, List.append_nil, List.cons_append, List.nil_append]
  after_results
  rfl

set_option maxHeartbeats 1000000 in
theorem V_w4 (c : Dev nD) : (V m c main_v25 : S128x1.Idx → EReal) = lastT (m (c, Proc.devRef .tc main_arg8)) := by
  dsimp only [Gen.V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, List.flatten_cons, List.flatten_nil, List.append_nil, List.cons_append, List.nil_append]
  after_results
  rfl

set_option maxHeartbeats 1000000 in
theorem V_b4 (c : Dev nD) : (V m c main_v26 : S1x1.Idx → EReal) = b4T (m (c, Proc.devRef .tc main_arg9)) := by
  dsimp only [Gen.V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, List.flatten_cons, List.flatten_nil, List.append_nil, List.cons_append, List.nil_append]
  after_results
  rfl

end Cert.KernelIdeal.HostSide

end
-- ==== Proof.Mlp.lean ====
/-
  A multilayer perceptron row by row, over the extended reals, and the two facts that relate its two
  arrangements: zero padding of the hidden width changes nothing, and a product with a matrix built from
  an indicator of column positions is a selection of columns.
-/
import Idealize.ShloMosaic.PureOps.Ideal.Laws

noncomputable section

namespace Cert.Mlp

open scoped BigOperators

/-- A dense layer followed by the rectifier: entry `j` is `max (∑ k, x k · W k j + b j) 0`. -/
def aff {K H : ℕ} (x : Fin K → EReal) (W : Fin K → Fin H → EReal) (b : Fin H → EReal) (j : Fin H) : EReal :=
  max ((∑ k, x k * W k j) + b j) 0

/-- The last dense layer: one output, no rectifier. -/
def lin {K : ℕ} (x : Fin K → EReal) (w : Fin K → EReal) (b : EReal) : EReal :=
  (∑ k, x k * w k) + b

/-- A vector extended by zeros to length `n'`. -/
def padV {n : ℕ} (n' : ℕ) (v : Fin n → EReal) (k : Fin n') : EReal :=
  if h : k.val < n then v ⟨k.val, h⟩ else 0

/-- A matrix extended by zero rows and zero columns to `K' × H'`. -/
def padM {K H : ℕ} (K' H' : ℕ) (W : Fin K → Fin H → EReal) (k : Fin K') (j : Fin H') : EReal :=
  if h : k.val < K ∧ j.val < H then W ⟨k.val, h.1⟩ ⟨j.val, h.2⟩ else 0

/-- Extending a family by zeros does not change its sum: split the index range at `n`; the first block
    reproduces the family, the second block is identically zero. -/
private theorem sum_pad {n n' : ℕ} (h : n ≤ n') (f : Fin n → EReal) :
    ∑ k : Fin n', (if h' : k.val < n then f ⟨k.val, h'⟩ else 0) = ∑ k : Fin n, f k := by
  obtain ⟨d, rfl⟩ := Nat.exists_eq_add_of_le h
  rw [Fin.sum_univ_add]
  have h1 : ∀ i : Fin n,
      (if h' : (Fin.castAdd d i).val < n then f ⟨(Fin.castAdd d i).val, h'⟩ else 0) = f i := by
    intro i
    have hi : (Fin.castAdd d i).val < n := by simp
    rw [dif_pos hi]
    rfl
  have h2 : ∀ i : Fin d,
      (if h' : (Fin.natAdd n i).val < n then f ⟨(Fin.natAdd n i).val, h'⟩ else 0) = 0 := by
    intro i
    have hi : ¬ (Fin.natAdd n i).val < n := by simp
    rw [dif_neg hi]
  simp only [h1, h2, Finset.sum_const_zero, add_zero]

/-- The coercion of the reals into the extended reals commutes with finite sums. -/
private theorem coe_sum {ι : Type} (s : Finset ι) (f : ι → ℝ) :
    (∑ i ∈ s, (f i : EReal)) = ((∑ i ∈ s, f i : ℝ) : EReal) := by
  classical
  refine Finset.induction_on s (by simp) ?_
  intro a s ha ih
  rw [Finset.sum_insert ha, Finset.sum_insert ha, ih, EReal.coe_add]

/-- Padding a vector to its own length changes nothing. -/
theorem padV_self {n : ℕ} (v : Fin n → EReal) : padV n v = v := by
  funext k
  unfold padV
  rw [dif_pos k.isLt]

/-- A rectified dense layer of zero-padded input, weights and bias is the zero-padded layer: the padded rows
    contribute `0 · 0`, the padded columns compute `max (0 + 0) 0 = 0`. -/
theorem aff_pad {K H K' H' : ℕ} (hK : K ≤ K') (x : Fin K → EReal) (W : Fin K → Fin H → EReal) (b : Fin H → EReal) :
    aff (padV K' x) (padM K' H' W) (padV H' b) = padV H' (aff x W b) := by
  funext j
  by_cases hj : j.val < H
  · -- a genuine column: the padded rows contribute `0 * 0`
    have hsum : ∑ k : Fin K', padV K' x k * padM K' H' W k j = ∑ k : Fin K, x k * W k ⟨j.val, hj⟩ := by
      rw [← sum_pad hK (fun k => x k * W k ⟨j.val, hj⟩)]
      refine Finset.sum_congr rfl (fun k _ => ?_)
      unfold padV padM
      by_cases hk : k.val < K
      · simp only [dif_pos hk, dif_pos (And.intro hk hj)]
      · simp only [dif_neg hk, dif_neg (fun h : k.val < K ∧ j.val < H => hk h.1), zero_mul]
    show max ((∑ k : Fin K', padV K' x k * padM K' H' W k j) + padV H' b j) 0 = padV H' (aff x W b) j
    rw [hsum]
    unfold padV
    rw [dif_pos hj, dif_pos hj]
    rfl
  · -- a padded column: every weight is zero, and so is the bias
    have hsum : ∑ k : Fin K', padV K' x k * padM K' H' W k j = 0 := by
      refine Finset.sum_eq_zero (fun k _ => ?_)
      unfold padM
      rw [dif_neg (fun h : k.val < K ∧ j.val < H => hj h.2), mul_zero]
    show max ((∑ k : Fin K', padV K' x k * padM K' H' W k j) + padV H' b j) 0 = padV H' (aff x W b) j
    rw [hsum]
    unfold padV
    rw [dif_neg hj, dif_neg hj, add_zero, max_self]

/-- The same for the last layer. -/
theorem lin_pad {K K' : ℕ} (hK : K ≤ K') (x w : Fin K → EReal) (b : EReal) :
    lin (padV K' x) (padV K' w) b = lin x w b := by
  have hsum : ∑ k : Fin K', padV K' x k * padV K' w k = ∑ k : Fin K, x k * w k := by
    rw [← sum_pad hK (fun k => x k * w k)]
    refine Finset.sum_congr rfl (fun k _ => ?_)
    unfold padV
    by_cases hk : k.val < K
    · simp only [dif_pos hk]
    · simp only [dif_neg hk, zero_mul]
  show (∑ k : Fin K', padV K' x k * padV K' w k) + b = (∑ k : Fin K, x k * w k) + b
  rw [hsum]

/-- SELECTION BY AN INDICATOR MATRIX. For finite `d`, `c`, `w` and column positions `col`,
    `∑ n, d n · (∑ a, ([col a = n] · c a) · w a) = ∑ a, (d (col a) · c a) · w a`: distribute `d n` over the inner
    sum (finite summands), exchange the sums, and the indicator keeps the one term `n = col a`. -/
theorem onehot_fuse {N A : ℕ} (d : Fin N → EReal) (c w : Fin A → EReal) (col : Fin A → Fin N)
    (hd : ∀ n, ∃ r : ℝ, d n = (r : EReal)) (hc : ∀ a, ∃ r : ℝ, c a = (r : EReal)) (hw : ∀ a, ∃ r : ℝ, w a = (r : EReal)) :
    ∑ n : Fin N, d n * (∑ a : Fin A, ((if col a = n then (1 : EReal) else 0) * c a) * w a)
      = ∑ a : Fin A, (d (col a) * c a) * w a := by
  -- every entry is the coercion of a real number
  choose dR hdR using hd
  choose cR hcR using hc
  choose wR hwR using hw
  have hind : ∀ (p : Prop) [Decidable p],
      (if p then (1 : EReal) else 0) = ((if p then (1 : ℝ) else 0 : ℝ) : EReal) := by
    intro p _
    split_ifs <;> simp
  -- both sides are coercions of real sums
  have hL : ∀ n : Fin N,
      d n * (∑ a : Fin A, ((if col a = n then (1 : EReal) else 0) * c a) * w a)
        = ((dR n * ∑ a : Fin A, ((if col a = n then (1 : ℝ) else 0) * cR a) * wR a : ℝ) : EReal) := by
    intro n
    rw [hdR n, EReal.coe_mul, ← coe_sum]
    congr 1
    refine Finset.sum_congr rfl (fun a _ => ?_)
    rw [hcR a, hwR a, hind, EReal.coe_mul, EReal.coe_mul]
  have hR : ∀ a : Fin A, (d (col a) * c a) * w a = ((dR (col a) * cR a * wR a : ℝ) : EReal) := by
    intro a
    rw [hdR (col a), hcR a, hwR a, EReal.coe_mul, EReal.coe_mul]
  rw [Finset.sum_congr rfl (fun n _ => hL n), Finset.sum_congr rfl (fun a _ => hR a), coe_sum, coe_sum,
    EReal.coe_eq_coe_iff]
  -- the identity in the reals: distribute, exchange the sums, keep the one term `n = col a`
  simp only [Finset.mul_sum]
  rw [Finset.sum_comm]
  refine Finset.sum_congr rfl (fun a _ => ?_)
  rw [Finset.sum_eq_single (col a)]
  · rw [if_pos rfl]
    ring
  · intro n _ hn
    rw [if_neg (fun h : col a = n => hn h.symm)]
    ring
  · intro h
    exact absurd (Finset.mem_univ _) h

end Cert.Mlp

end
-- ==== Proof.Spec.lean ====
/-
  The function both programs compute. Row `r` of the result is a four-layer perceptron applied to 64
  selected columns of row `r` of the data, each scaled by its edge's gate:
    x a   = data r (pos a) · gate a,                         a < 64,
    h₁    = relu (x · W1 + b1),  h₂ = relu (h₁ · W2 + b2),  h₃ = relu (h₂ · W3 + b3)   (width 100),
    out r = h₃ · W4 + b4,
  where `pos a` is the column position edge `a` names (a negative position counted from the end, then
  clamped into `[0, 255]`) and `gate a = max (weights (wpos a) · direction a) 0`.
-/
import proofs.«421247_j9603546873894_3_alg».proof.Proof.Mlp
import Idealize.ShloMosaic.Lib.ValueIdx

noncomputable section

namespace Cert.Spec

open Idealize.ShloMosaic Idealize.ShloMosaic.ValueIdx Cert.Mlp

/-- jnp's normalisation of a position into an axis of extent `n`: a negative word counts from the end. -/
def wrap (n x : BitVec 32) : BitVec 32 :=
  Scalar.select (IntOp.cmpi .slt x 0#32) (IntOp.addi x n) x

/-- The position a gather reads in an axis of extent `N` for the start word `x`: normalised, read signed,
    clamped into the axis. -/
def pos (N : ℕ) (hN : 0 < N) (n x : BitVec 32) : Fin N :=
  ⟨min (wrap n x).toInt.toNat (N - 1), by omega⟩

/-- Edge `a`'s gate. -/
def gate (a1 : (⟨1, ![64]⟩ : Shape).Idx → EReal) (a11 a12 : (⟨1, ![64]⟩ : Shape).Idx → BitVec 32) (a : Fin 64) : EReal :=
  max (a1 (ix1 (pos 64 (by decide) 64#32 (a12 (ix1 a)))) * (((a11 (ix1 a)).toInt : ℝ) : EReal)) 0

/-- Edge `a`'s column of the data. -/
def col (a10 : (⟨1, ![64]⟩ : Shape).Idx → BitVec 32) (a : Fin 64) : Fin 256 :=
  pos 256 (by decide) 256#32 (a10 (ix1 a))

/-- The perceptron's input at row `r`: the selected, gated columns. -/
def input (a0 : (⟨2, ![500000, 256]⟩ : Shape).Idx → EReal) (a1 : (⟨1, ![64]⟩ : Shape).Idx → EReal)
    (a10 a11 a12 : (⟨1, ![64]⟩ : Shape).Idx → BitVec 32) (r : Fin 500000) (a : Fin 64) : EReal :=
  a0 (ix2 r (col a10 a)) * gate a1 a11 a12 a

/-- The result array as one function of the thirteen arguments. -/
def G (a0 : (⟨2, ![500000, 256]⟩ : Shape).Idx → EReal) (a1 : (⟨1, ![64]⟩ : Shape).Idx → EReal)
    (a2 : (⟨2, ![64, 100]⟩ : Shape).Idx → EReal) (a3 : (⟨1, ![100]⟩ : Shape).Idx → EReal)
    (a4 : (⟨2, ![100, 100]⟩ : Shape).Idx → EReal) (a5 : (⟨1, ![100]⟩ : Shape).Idx → EReal)
    (a6 : (⟨2, ![100, 100]⟩ : Shape).Idx → EReal) (a7 : (⟨1, ![100]⟩ : Shape).Idx → EReal)
    (a8 : (⟨2, ![100, 1]⟩ : Shape).Idx → EReal) (a9 : (⟨1, ![1]⟩ : Shape).Idx → EReal)
    (a10 a11 a12 : (⟨1, ![64]⟩ : Shape).Idx → BitVec 32) : (⟨2, ![500000, 1]⟩ : Shape).Idx → EReal := fun i =>
  lin
    (aff
      (aff
        (aff (input a0 a1 a10 a11 a12 ⟨(i 0).val, (i 0).isLt⟩) (fun a j => a2 (ix2 a j)) (fun j => a3 (ix1 j)))
        (fun k j => a4 (ix2 k j)) (fun j => a5 (ix1 j)))
      (fun k j => a6 (ix2 k j)) (fun j => a7 (ix1 j)))
    (fun k => a8 (ix2 k (0 : Fin 1))) (a9 (ix1 (0 : Fin 1)))

end Cert.Spec

end
-- ==== Proof.LibContract.lean ====
/-
  Two reads at an index over the extended reals, for matrices laid out as [rows, columns]: a matrix-unit product
  into a zero accumulator, and the host's contraction.
-/
import Idealize.ShloMosaic.PureOps.Ideal.Laws
import Idealize.ShloMosaic.Lib.ValueIdx

noncomputable section

namespace Cert.LibContract

open Idealize.ShloMosaic Idealize.ShloMosaic.ValueIdx
open scoped BigOperators

/-- The dimension numbers `[1] × [0]`, kept axes `[0]` and `[1]`, no batch axes, over any proof that they are
    well formed. -/
private abbrev lit {M K N : ℕ} (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ :=
  ⟨[1], [0], [0], [1], [], [], wf⟩

section Axes
variable {M K N : ℕ} (wf : DotDims.WF ⟨2, ![M, K]⟩ ⟨2, ![K, N]⟩ ⟨2, ![M, N]⟩ [1] [0] [0] [1] [] [])

/-- The left operand's kept axis reads the result's row. -/
private theorem lhs_0 (i : (⟨2, ![M, N]⟩ : Shape).Idx) (q : (lit wf).contr.Idx) :
    ((lit wf).lhsIdx i q 0).val = (i 0).val := by
  unfold DotDims.lhsIdx
  rw [dif_neg (show ¬(0 : Fin (⟨2, ![M, K]⟩ : Shape).rank) ∈ (lit wf).lhsBatch from List.not_mem_nil),
    dif_pos (show (0 : Fin (⟨2, ![M, K]⟩ : Shape).rank) ∈ (lit wf).lhsNonContracting from List.mem_singleton.mpr rfl)]
  rfl

/-- The left operand's contracted axis reads the contraction position. -/
private theorem lhs_1 (i : (⟨2, ![M, N]⟩ : Shape).Idx) (q : (lit wf).contr.Idx) :
    ((lit wf).lhsIdx i q 1).val = (q ⟨0, Nat.one_pos⟩).val :=
  (lit wf).lhsIdx_val_of_single rfl i q

/-- The right operand's contracted axis reads the contraction position. -/
private theorem rhs_0 (i : (⟨2, ![M, N]⟩ : Shape).Idx) (q : (lit wf).contr.Idx) :
    ((lit wf).rhsIdx i q 0).val = (q ⟨0, Nat.one_pos⟩).val :=
  (lit wf).rhsIdx_val_of_single rfl i q

/-- The right operand's kept axis reads the result's column. -/
private theorem rhs_1 (i : (⟨2, ![M, N]⟩ : Shape).Idx) (q : (lit wf).contr.Idx) :
    ((lit wf).rhsIdx i q 1).val = (i 1).val := by
  unfold DotDims.rhsIdx
  rw [dif_neg (show ¬(1 : Fin (⟨2, ![K, N]⟩ : Shape).rank) ∈ (lit wf).rhsBatch from List.not_mem_nil),
    dif_pos (show (1 : Fin (⟨2, ![K, N]⟩ : Shape).rank) ∈ (lit wf).rhsNonContracting from List.mem_singleton.mpr rfl)]
  rfl

/-- The contraction's sum over its one-axis index set is the sum over `Fin K`, the operands read at (r, k) and
    (k, j): re-index through the bijection of the one-axis index set with `Fin K`, then compare the operand
    indices axis by axis. -/
private theorem contr_lit {φ₁ φ₂ : FTy} (lhs : FVec Ideal ⟨2, ![M, K]⟩ φ₁) (rhs : FVec Ideal ⟨2, ![K, N]⟩ φ₂)
    (r : Fin M) (j : Fin N) :
    ∑ k : (lit wf).contr.Idx, lhs ((lit wf).lhsIdx (ix2 r j) k) * rhs ((lit wf).rhsIdx (ix2 r j) k)
      = ∑ k : Fin K, lhs (ix2 r k) * rhs (ix2 k j) := by
  rw [← Equiv.sum_comp (ValueIdx.contrEquiv1 (lit wf) K rfl rfl).symm]
  refine Finset.sum_congr rfl fun k _ => ?_
  have hk := ValueIdx.contrEquiv1_symm_val (lit wf) K rfl rfl k
  have el : (lit wf).lhsIdx (ix2 r j) ((ValueIdx.contrEquiv1 (lit wf) K rfl rfl).symm k) = ix2 r k :=
    funext fun a => Fin.ext (by
      match a with
      | ⟨0, _⟩ => exact lhs_0 wf _ _
      | ⟨1, _⟩ => exact (lhs_1 wf _ _).trans hk)
  have er : (lit wf).rhsIdx (ix2 r j) ((ValueIdx.contrEquiv1 (lit wf) K rfl rfl).symm k) = ix2 k j :=
    funext fun a => Fin.ext (by
      match a with
      | ⟨0, _⟩ => exact (rhs_0 wf _ _).trans hk
      | ⟨1, _⟩ => exact rhs_1 wf _ _)
  rw [el, er]

end Axes

/-- The same for any dimension numbers whose six lists are those: the record is then that literal one. -/
private theorem contr_plain {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (lhs : FVec Ideal ⟨2, ![M, K]⟩ φ₁) (rhs : FVec Ideal ⟨2, ![K, N]⟩ φ₂) (r : Fin M) (j : Fin N) :
    ∑ k : d.contr.Idx, lhs (d.lhsIdx (ix2 r j) k) * rhs (d.rhsIdx (ix2 r j) k)
      = ∑ k : Fin K, lhs (ix2 r k) * rhs (ix2 k j) := by
  obtain ⟨lc, rc, ln, rn, lb, rb, wf⟩ := d
  simp only at hlc hrc hln hrn hlb hrb
  subst hlc hrc hln hrn hlb hrb
  exact contr_lit wf lhs rhs r j

/-- The product of an [M, K] by a [K, N] matrix (contraction of the left operand's axis 1 with the right
    operand's axis 0, no batch axes), accumulated into zeros and read at (r, j): `∑ k, lhs (r, k) · rhs (k, j)`. -/
theorem matmul_plain {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![M, K]⟩ φ₁) (rhs : FVec Ideal ⟨2, ![K, N]⟩ φ₂)
    (r : Fin M) (j : Fin N) :
    matmul d prec lhs rhs (constant ⟨2, ![M, N]⟩ .f32 0x00000000#32) (ix2 r j)
      = ∑ k : Fin K, lhs (ix2 r k) * rhs (ix2 k j) := by
  simp only [matmul]
  rw [Ideal.matmul_constant_zero_apply]
  exact contr_plain d hlc hrc hln hrn hlb hrb lhs rhs r j

/-- The host's contraction of the same layout, read at (r, j): the same sum. -/
theorem dotGeneral_plain {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![M, K]⟩ φ₁) (rhs : FVec Ideal ⟨2, ![K, N]⟩ φ₂)
    (r : Fin M) (j : Fin N) :
    Host.dotGeneral d prec lhs rhs (ix2 r j) = ∑ k : Fin K, lhs (ix2 r k) * rhs (ix2 k j) := by
  simp only [Host.dotGeneral]
  rw [Ideal.dotGeneral_apply]
  exact contr_plain d hlc hrc hln hrn hlb hrb lhs rhs r j

end Cert.LibContract

end
-- ==== Proof.LibPad.lean ====
/-
  A matrix padded with a value that is zero, on the high side of each axis only, read entry by entry: the matrix
  inside its own extent and zero outside.
-/
import proofs.«421247_j9603546873894_3_alg».proof.Proof.Mlp
import Idealize.ShloMosaic.Lib.KernelVsHost
import Idealize.ShloMosaic.Lib.ValueIdx

noncomputable section

namespace Cert.LibPad

open Idealize.ShloMosaic Idealize.ShloMosaic.ValueIdx Cert.Mlp

/-- A [K, H] matrix padded (no low padding, no interior padding) to [K', H'] with a zero padding value is the
    matrix extended by zero rows and columns. -/
theorem pad_matrix {K H K' H' : ℕ} (hi : Fin 2 → ℕ) (x : (⟨2, ![K, H]⟩ : Shape).Idx → EReal)
    (v : (⟨0, ![]⟩ : Shape).Idx → EReal)
    (h : (⟨2, ![K, H]⟩ : Shape).Pads (![0, 0] : Fin 2 → ℕ) hi ![0, 0] ⟨2, ![K', H']⟩)
    (hu : 0 < (⟨0, ![]⟩ : Shape).numel) (hv : ∀ i, v i = 0) :
    (fun (k : Fin K') (j : Fin H') => pad ⟨2, ![K', H']⟩ ![0, 0] hi ![0, 0] x v h hu (ix2 k j))
      = padM K' H' (fun k j => x (ix2 k j)) := by
  funext k j
  show pad ⟨2, ![K', H']⟩ ![0, 0] hi ![0, 0] x v h hu (ix2 k j) = padM K' H' (fun k j => x (ix2 k j)) k j
  unfold padM
  by_cases hkj : k.val < K ∧ j.val < H
  · -- inside the matrix on both axes: the padded array reads the matrix there
    rw [dif_pos hkj]
    exact pad_apply_of_inside ![0, 0] hi ![0, 0] x v h hu (ix2 k j) (ix2 ⟨k.val, hkj.1⟩ ⟨j.val, hkj.2⟩)
      (fun a => match a with
        | ⟨0, _⟩ => by show k.val = 0 + k.val * (0 + 1); omega
        | ⟨1, _⟩ => by show j.val = 0 + j.val * (0 + 1); omega)
  · -- outside on one axis: the padded array reads the padding value, which is zero
    rw [dif_neg hkj]
    by_cases hk : k.val < K
    · have hj : ¬ j.val < H := fun hj => hkj ⟨hk, hj⟩
      rw [pad_apply_of_not_inside ![0, 0] hi ![0, 0] x v h hu (ix2 k j) 1 (fun hin => hj (by
        have h3 : (j.val - 0) / (0 + 1) < H := hin.2.2
        omega))]
      exact hv _
    · rw [pad_apply_of_not_inside ![0, 0] hi ![0, 0] x v h hu (ix2 k j) 0 (fun hin => hk (by
        have h3 : (k.val - 0) / (0 + 1) < K := hin.2.2
        omega))]
      exact hv _

/-- A one-row matrix padded along its columns is the row extended by zeros. -/
theorem pad_row {H H' : ℕ} (hi : Fin 2 → ℕ) (x : (⟨2, ![1, H]⟩ : Shape).Idx → EReal)
    (v : (⟨0, ![]⟩ : Shape).Idx → EReal)
    (h : (⟨2, ![1, H]⟩ : Shape).Pads (![0, 0] : Fin 2 → ℕ) hi ![0, 0] ⟨2, ![1, H']⟩)
    (hu : 0 < (⟨0, ![]⟩ : Shape).numel) (hv : ∀ i, v i = 0) :
    (fun (j : Fin H') => pad ⟨2, ![1, H']⟩ ![0, 0] hi ![0, 0] x v h hu (ix2 (0 : Fin 1) j))
      = padV H' (fun j => x (ix2 (0 : Fin 1) j)) := by
  refine (congrFun (pad_matrix hi x v h hu hv) (0 : Fin 1)).trans ?_
  funext j
  unfold padM padV
  by_cases hj : j.val < H
  · rw [dif_pos (And.intro (show (0 : Fin 1).val < 1 from Nat.one_pos) hj), dif_pos hj]
  · rw [dif_neg (fun hh : (0 : Fin 1).val < 1 ∧ j.val < H => hj hh.2), dif_neg hj]

/-- A one-column matrix padded along its rows is the column extended by zeros. -/
theorem pad_col {K K' : ℕ} (hi : Fin 2 → ℕ) (x : (⟨2, ![K, 1]⟩ : Shape).Idx → EReal)
    (v : (⟨0, ![]⟩ : Shape).Idx → EReal)
    (h : (⟨2, ![K, 1]⟩ : Shape).Pads (![0, 0] : Fin 2 → ℕ) hi ![0, 0] ⟨2, ![K', 1]⟩)
    (hu : 0 < (⟨0, ![]⟩ : Shape).numel) (hv : ∀ i, v i = 0) :
    (fun (k : Fin K') => pad ⟨2, ![K', 1]⟩ ![0, 0] hi ![0, 0] x v h hu (ix2 k (0 : Fin 1)))
      = padV K' (fun k => x (ix2 k (0 : Fin 1))) := by
  funext k
  refine (congrFun (congrFun (pad_matrix hi x v h hu hv) k) (0 : Fin 1)).trans ?_
  unfold padM padV
  by_cases hk : k.val < K
  · rw [dif_pos (And.intro hk (show (0 : Fin 1).val < 1 from Nat.one_pos)), dif_pos hk]
  · rw [dif_neg (fun hh : k.val < K ∧ (0 : Fin 1).val < 1 => hk hh.1), dif_neg hk]

end Cert.LibPad

end
-- ==== Proof.KernelHostRead.lean ====
/-
  The staged arrays read entry by entry: the gate and the indicator of column positions at an index, the fused
  first-layer matrix as a zero-padded contraction of their product with the first layer's weights, and the other
  weights and biases as zero-padded copies of the arguments.
-/
import proofs.«421247_j9603546873894_3_alg».proof.Proof.KernelHost
import proofs.«421247_j9603546873894_3_alg».proof.Proof.Spec
import proofs.«421247_j9603546873894_3_alg».proof.Proof.LibContract
import proofs.«421247_j9603546873894_3_alg».proof.Proof.LibPad
import Idealize.ShloMosaic.Lib.StableHlo.Predicate
import Idealize.ShloMosaic.Lib.IdealHost
import Idealize.ShloMosaic.Lib.ValueLayout

noncomputable section

namespace Cert.KernelIdeal.HostSide

open Cert.KernelIdeal Cert.KernelIdeal.Gen Idealize.ShloMosaic Idealize.ShloMosaic.ValueIdx
open Idealize.ShloMosaic.StableHlo Cert.Mlp Cert.LibContract Cert.LibPad
open scoped BigOperators

/-- The rank-1 index at a coordinate, in the two spellings in use. -/
theorem ofFin_eq_ix1 {n : ℕ} (p : Fin n) : Shape.Idx.ofFin p = ix1 p := by
  funext d; match d with | ⟨0, _⟩ => exact Fin.ext rfl

/-- A rank-2 index from its coordinates, in the two spellings in use. -/
theorem ij_eq_ix2 {n m : ℕ} (p : Fin n) (q : Fin m) : Predicate.ij p q = ix2 p q := by
  funext d; match d with | ⟨0, _⟩ => rfl | ⟨1, _⟩ => rfl

/-- The padding value is zero. -/
theorem zeroT_apply (i : S_.Idx) : zeroT i = 0 := by
  show ((((0#32 : BitVec 32).toInt : ℝ)) : EReal) = 0
  simp

/-- The gate at edge `a`: the weight at the edge's normalised, clamped position, times the direction, rectified. -/
theorem gateT_apply (x1 : FVec Ideal S64 .f32) (x11 x12 : IVec S64 32) (a : Fin 64) :
    gateT x1 x11 x12 (ix1 a) = Spec.gate x1 x11 x12 a := by
  have hz : broadcastInDim S64 ![] bcast_S_S64 (constant (F := Ideal) S_ .f32 0x00000000#32) (ix1 a) = (0 : EReal) :=
    (broadcastInDim_scalar_apply bcast_S_S64 _ _).trans Ideal.ofBits_zero_f32
  have hw : (broadcastInDim S64x1 ![0] bcast_S64_S64x1_0
        (select (cmpi .slt x12 (broadcastInDim S64 ![] bcast_S_S64 (constantI S_ 32 0#32)))
          (addi x12 (broadcastInDim S64 ![] bcast_S_S64 (constantI S_ 32 64#32))) x12)) (Predicate.ixP a)
      = Spec.wrap 64#32 (x12 (ix1 a)) := by
    rw [Predicate.bcast_col1, ofFin_eq_ix1]
    rfl
  have hg := Predicate.gather_take gather_S64_S64x1_S64_n_0_n_n_0_1_1 rfl rfl rfl rfl x1
    (broadcastInDim S64x1 ![0] bcast_S64_S64x1_0
        (select (cmpi .slt x12 (broadcastInDim S64 ![] bcast_S_S64 (constantI S_ 32 0#32)))
          (addi x12 (broadcastInDim S64 ![] bcast_S_S64 (constantI S_ 32 64#32))) x12)) a (by decide)
  rw [ofFin_eq_ix1, ofFin_eq_ix1] at hg
  unfold gateT Spec.gate Spec.pos
  rw [maximumf_apply, mulf_apply, hz, hg]
  simp only [hw]
  rfl

/-- The indicator at (edge, column): the equality test of the edge's position word against the column number,
    its bit converted. -/
theorem onehotT_apply (x10 : IVec S64 32) (a : Fin 64) (n : Fin 256) :
    onehotT x10 (ix2 a n) = ((((IntOp.cmpi .eq (x10 (ix1 a)) (BitVec.ofNat 32 n.val)).toNat : ℝ)) : EReal) := by
  have h1 : broadcastInDim S64x256 ![0, 1] bcast_S64x1_S64x256_0_1 (broadcastInDim S64x1 ![0] bcast_S64_S64x1_0 x10) (ix2 a n)
      = x10 (ix1 a) := by
    rw [← ij_eq_ix2, Predicate.bcast_rows, ofFin_eq_ix1]
  have h2 : broadcastInDim S64x256 ![0, 1] bcast_S1x256_S64x256_0_1 (iotaInDim S1x256 32 1) (ix2 a n)
      = BitVec.ofNat 32 n.val := by
    rw [← ij_eq_ix2, Predicate.bcast_of_row]
    rfl
  unfold onehotT
  show FloatOps.uitofp .f32 (IntOp.cmpi .eq _ _) = _
  rw [h1, h2]
  rfl

/-- THE FUSED FIRST-LAYER MATRIX, entry by entry: inside the first 100 columns the contraction over the 64 edges of
    (indicator · gate) with the first layer's weights; zero in the 28 padded columns. -/
theorem m1T_apply (x1 : FVec Ideal S64 .f32) (x2 : FVec Ideal S64x100 .f32) (x10 x11 x12 : IVec S64 32) :
    (fun (n : Fin 256) (j : Fin 128) => m1T x1 x2 x10 x11 x12 (ix2 n j))
      = padM 256 128 (fun (n : Fin 256) (j : Fin 100) =>
          ∑ a : Fin 64, (onehotT x10 (ix2 a n) * Spec.gate x1 x11 x12 a) * x2 (ix2 a j)) := by
  unfold m1T
  rw [pad_matrix _ _ _ _ _ zeroT_apply]
  congr 1
  funext n j
  rw [dotGeneral_plain dot_S256x64_S64x100_S256x100_1_0_0_1_n_n rfl rfl rfl rfl rfl rfl]
  refine Finset.sum_congr rfl fun a _ => ?_
  rw [transpose_ix2_apply, mulf_apply, ← ij_eq_ix2, Predicate.bcast_rows, ofFin_eq_ix1, gateT_apply, ij_eq_ix2]

/-- A padded bias row is the bias extended by zeros. -/
theorem biasT_apply (x : FVec Ideal S100 .f32) :
    (fun (j : Fin 128) => biasT x (ix2 (0 : Fin 1) j)) = padV 128 (fun (j : Fin 100) => x (ix1 j)) := by
  unfold biasT
  rw [pad_row _ _ _ _ _ zeroT_apply]
  congr 1
  funext j
  exact shapeCast_a_1a_apply x shapeCasts_S100_S1x100 (0 : Fin 1) j

/-- Padded hidden weights are the weights extended by zero rows and columns. -/
theorem hiddenT_apply (x : FVec Ideal S100x100 .f32) :
    (fun (k : Fin 128) (j : Fin 128) => hiddenT x (ix2 k j)) = padM 128 128 (fun (k j : Fin 100) => x (ix2 k j)) := by
  unfold hiddenT
  exact pad_matrix _ _ _ _ _ zeroT_apply

/-- The padded last weights are the column extended by zeros. -/
theorem lastT_apply (x : FVec Ideal S100x1 .f32) :
    (fun (k : Fin 128) => lastT x (ix2 k (0 : Fin 1))) = padV 128 (fun (k : Fin 100) => x (ix2 k (0 : Fin 1))) := by
  unfold lastT
  exact pad_col _ _ _ _ _ zeroT_apply

/-- The last bias as a 1 × 1 array holds the bias. -/
theorem b4T_apply (x : FVec Ideal S1 .f32) : b4T x (ix2 (0 : Fin 1) (0 : Fin 1)) = x (ix1 (0 : Fin 1)) := by
  unfold b4T
  exact shapeCast_a_1a_apply x shapeCasts_S1_S1x1 (0 : Fin 1) (0 : Fin 1)

end Cert.KernelIdeal.HostSide

end
-- ==== Proof.BodyValue.lean ====
/-
  The kernel body's one store, read at a row: the stored value is a four-layer perceptron of the row of the data
  block, with the loaded weight and bias blocks as its parameters (hidden width 128). Changes of float format
  are the identity over the extended reals, a shape cast to the same shape is the identity, and each matrix-unit
  product into a zero accumulator is a plain sum of products.
-/
import proofs.«421247_j9603546873894_3_alg».proof.Proof.Gen.KernelIdeal.Skeleton
import proofs.«421247_j9603546873894_3_alg».proof.Proof.Mlp
import proofs.«421247_j9603546873894_3_alg».proof.Proof.LibContract
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.BodyValue

open Cert.KernelIdeal Cert.KernelIdeal.Gen Idealize.ShloMosaic Idealize.ShloMosaic.ValueIdx Cert.Mlp Cert.LibContract

/-- ONE HIDDEN LAYER of the body at (r, j): the product of the activations (cast to bf16: the identity here) with
    the weights into zeros, plus the bias row broadcast down the rows, rectified against a zero splat. -/
theorem layer_apply {K : ℕ} (d : DotDims ⟨2, ![5000, K]⟩ ⟨2, ![K, 128]⟩ ⟨2, ![5000, 128]⟩)
    (hlc : d.lhsContracting = [1]) (hrc : d.rhsContracting = [0]) (hln : d.lhsNonContracting = [0])
    (hrn : d.rhsNonContracting = [1]) (hlb : d.lhsBatch = []) (hrb : d.rhsBatch = [])
    (hb : FTy.bits .bf16 < FTy.bits .f32)
    (hsw : (⟨2, ![K, 128]⟩ : Shape).ShapeCasts ⟨2, ![K, 128]⟩)
    (hsb : (⟨2, ![1, 128]⟩ : Shape).ShapeCasts ⟨2, ![1, 128]⟩)
    (hbr : (⟨2, ![1, 128]⟩ : Shape).Broadcasts ⟨2, ![5000, 128]⟩)
    (x : FVec Ideal ⟨2, ![5000, K]⟩ .f32) (w : FVec Ideal ⟨2, ![K, 128]⟩ .f32) (b : FVec Ideal ⟨2, ![1, 128]⟩ .f32)
    (r : Fin 5000) (j : Fin 128) :
    maximumf
        (addf
          (matmul d none (truncf .bf16 x hb) (truncf .bf16 (shapeCast ⟨2, ![K, 128]⟩ w hsw) hb)
            (constant ⟨2, ![5000, 128]⟩ .f32 0x00000000#32))
          (broadcastTo ⟨2, ![5000, 128]⟩ (shapeCast ⟨2, ![1, 128]⟩ b hsb) hbr))
        (broadcast ⟨2, ![5000, 128]⟩ (Scalar.ofBits .f32 0x00000000#32)) (ix2 r j)
      = aff (fun k => x (ix2 r k)) (fun k j => w (ix2 k j)) (fun j => b (ix2 (0 : Fin 1) j)) j := by
  rw [maximumf_apply, addf_apply, matmul_plain d hlc hrc hln hrn hlb hrb, broadcast_apply,
    broadcastTo_1b_ab_apply, shapeCast_self, shapeCast_self]
  show max ((∑ k : Fin K, x (ix2 r k) * w (ix2 k j)) + b (ix2 (0 : Fin 1) j)) (Ideal.ofBits .f32 0x00000000#32) = _
  rw [Ideal.ofBits_zero_f32]
  rfl

/-- The hidden activations the body keeps for the last layer are three such layers. -/
theorem hidden_apply (x0 : Vec Ideal S5000x256 .f32) (v2 : Vec Ideal S256x128 .f32) (v6 : Vec Ideal S1x128 .f32)
    (v12 : Vec Ideal S128x128 .f32) (v17 : Vec Ideal S1x128 .f32) (v23 : Vec Ideal S128x128 .f32)
    (v28 : Vec Ideal S1x128 .f32) (r : Fin 5000) (j : Fin 128) :
    k0_pay2 x0 v2 v6 v12 v17 v23 v28 (ix2 r j)
      = aff
          (aff
            (aff (fun n => x0 (ix2 r n)) (fun n j => v2 (ix2 n j)) (fun j => v6 (ix2 (0 : Fin 1) j)))
            (fun k j => v12 (ix2 k j)) (fun j => v17 (ix2 (0 : Fin 1) j)))
          (fun k j => v23 (ix2 k j)) (fun j => v28 (ix2 (0 : Fin 1) j)) j := by
  unfold k0_pay2
  refine (layer_apply dot_S5000x128_S128x128_S5000x128_1_0_0_1_n_n rfl rfl rfl rfl rfl rfl bitsLt_bf16_f32
    shapeCasts_S128x128_S128x128 shapeCasts_S1x128_S1x128 broadcasts_S1x128_S5000x128 _ v23 v28 r j).trans ?_
  refine congrArg (fun f => aff f (fun k j => v23 (ix2 k j)) (fun j => v28 (ix2 (0 : Fin 1) j)) j) (funext fun k => ?_)
  refine (layer_apply dot_S5000x128_S128x128_S5000x128_1_0_0_1_n_n rfl rfl rfl rfl rfl rfl bitsLt_bf16_f32
    shapeCasts_S128x128_S128x128 shapeCasts_S1x128_S1x128 broadcasts_S1x128_S5000x128 _ v12 v17 r k).trans ?_
  refine congrArg (fun f => aff f (fun k j => v12 (ix2 k j)) (fun j => v17 (ix2 (0 : Fin 1) j)) k) (funext fun k' => ?_)
  exact layer_apply dot_S5000x256_S256x128_S5000x128_1_0_0_1_n_n rfl rfl rfl rfl rfl rfl bitsLt_bf16_f32
    shapeCasts_S256x128_S256x128 shapeCasts_S1x128_S1x128 broadcasts_S1x128_S5000x128 x0 v2 v6 r k'

/-- THE STORED VALUE at row `r`: the last layer over those activations, plus the last bias. -/
theorem pay_apply (x0 : Vec Ideal S5000x256 .f32) (v2 : Vec Ideal S256x128 .f32) (v6 : Vec Ideal S1x128 .f32)
    (v12 : Vec Ideal S128x128 .f32) (v17 : Vec Ideal S1x128 .f32) (v23 : Vec Ideal S128x128 .f32)
    (v28 : Vec Ideal S1x128 .f32) (v34 : Vec Ideal S128x1 .f32) (v39 : Vec Ideal S1x1 .f32) (r : Fin 5000) :
    k0_pay1 (k0_pay2 x0 v2 v6 v12 v17 v23 v28) (k0_pay3 v34) v39 (ix2 r (0 : Fin 1))
      = lin
          (aff
            (aff
              (aff (fun n => x0 (ix2 r n)) (fun n j => v2 (ix2 n j)) (fun j => v6 (ix2 (0 : Fin 1) j)))
              (fun k j => v12 (ix2 k j)) (fun j => v17 (ix2 (0 : Fin 1) j)))
            (fun k j => v23 (ix2 k j)) (fun j => v28 (ix2 (0 : Fin 1) j)))
          (fun k => v34 (ix2 k (0 : Fin 1))) (v39 (ix2 (0 : Fin 1) (0 : Fin 1))) := by
  unfold k0_pay1 k0_pay3
  rw [addf_apply, matmul_plain dot_S5000x128_S128x1_S5000x1_1_0_0_1_n_n rfl rfl rfl rfl rfl rfl]
  have hb : broadcastTo S5000x1 (shapeCast S1x1 v39 shapeCasts_S1x1_S1x1) broadcasts_S1x1_S5000x1 (ix2 r (0 : Fin 1))
      = v39 (ix2 (0 : Fin 1) (0 : Fin 1)) := by
    rw [shapeCast_self]
    refine broadcastTo_apply v39 broadcasts_S1x1_S5000x1 _ _ fun ax => ?_
    match ax with
    | ⟨0, _⟩ => rfl
    | ⟨1, _⟩ => rfl
  rw [hb]
  unfold lin
  refine congrArg (· + v39 (ix2 (0 : Fin 1) (0 : Fin 1))) (Finset.sum_congr rfl fun k _ => ?_)
  rw [truncf_apply, truncf_apply, shapeCast_self, hidden_apply]

end Cert.KernelIdeal.BodyValue

end
-- ==== Proof.Fuse.lean ====
/-
  One row of the result, in the kernel's arrangement and in the reference's: the zero-padded perceptron over all 256
  columns, whose first-layer matrix is the contraction of (indicator · gate) with the first layer's weights, is the
  perceptron of width 100 over the 64 selected, gated columns.
-/
import proofs.«421247_j9603546873894_3_alg».proof.Proof.Mlp

noncomputable section

namespace Cert.Mlp

open scoped BigOperators

/-- The kernel's row is the reference's row. The first layer by `onehot_fuse` (the data row, the gates and the first
    layer's weights are real numbers) under `aff_pad`; the other layers by `aff_pad` and `lin_pad` alone. -/
theorem row_eq (d : Fin 256 → EReal) (g : Fin 64 → EReal) (col : Fin 64 → Fin 256) (oh : Fin 64 → Fin 256 → EReal)
    (W1 : Fin 64 → Fin 100 → EReal) (b1 : Fin 100 → EReal) (W2 : Fin 100 → Fin 100 → EReal) (b2 : Fin 100 → EReal)
    (W3 : Fin 100 → Fin 100 → EReal) (b3 : Fin 100 → EReal) (W4 : Fin 100 → EReal) (b4 : EReal)
    (hoh : ∀ a n, oh a n = if col a = n then (1 : EReal) else 0)
    (hd : ∀ n, ∃ r : ℝ, d n = (r : EReal)) (hg : ∀ a, ∃ r : ℝ, g a = (r : EReal))
    (hW : ∀ a j, ∃ r : ℝ, W1 a j = (r : EReal)) :
    lin
        (aff
          (aff
            (aff d (padM 256 128 (fun (n : Fin 256) (j : Fin 100) => ∑ a : Fin 64, (oh a n * g a) * W1 a j)) (padV 128 b1))
            (padM 128 128 W2) (padV 128 b2))
          (padM 128 128 W3) (padV 128 b3))
        (padV 128 W4) b4
      = lin (aff (aff (aff (fun a => d (col a) * g a) W1 b1) W2 b2) W3 b3) W4 b4 := by
  have h1 : aff d (padM 256 128 (fun (n : Fin 256) (j : Fin 100) => ∑ a : Fin 64, (oh a n * g a) * W1 a j)) (padV 128 b1)
      = padV 128 (aff (fun a => d (col a) * g a) W1 b1) := by
    have h := aff_pad (K' := 256) (H' := 128) (le_refl 256) d
      (fun (n : Fin 256) (j : Fin 100) => ∑ a : Fin 64, (oh a n * g a) * W1 a j) b1
    rw [padV_self] at h
    rw [h]
    congr 1
    funext j
    unfold aff
    have hs : ∑ n : Fin 256, d n * (∑ a : Fin 64, (oh a n * g a) * W1 a j) = ∑ a : Fin 64, (d (col a) * g a) * W1 a j := by
      simp only [hoh]
      exact onehot_fuse d g (fun a => W1 a j) col hd hg (fun a => hW a j)
    rw [hs]
  rw [h1, aff_pad (by decide : 100 ≤ 128), aff_pad (by decide : 100 ≤ 128), lin_pad (by decide : 100 ≤ 128)]

end Cert.Mlp

end
-- ==== Proof.SpecFacts.lean ====
/-
  Column positions inside their range: a position word that reads, signed, in `[0, 256)` is its own normalised and
  clamped position, and comparing it for equality with a column number is the indicator of that position.
-/
import proofs.«421247_j9603546873894_3_alg».proof.Proof.Spec
import Idealize.ShloMosaic.Lib.StableHlo.Predicate

noncomputable section

namespace Cert.Spec

open Idealize.ShloMosaic

/-- A word that reads non-negative as a signed number is below `2 ^ 31`. -/
private theorem toNat_lt_of_toInt_nonneg (w : BitVec 32) (h0 : 0 ≤ w.toInt) : w.toNat < 2 ^ 31 := by
  have hlt := w.isLt
  rw [BitVec.toInt_eq_toNat_cond] at h0
  split at h0
  · omega
  · omega

/-- In range, the position read is the word's own value. -/
theorem pos_val_of_range (w : BitVec 32) (h0 : 0 ≤ w.toInt) (h1 : w.toInt < 256) :
    (pos 256 (by decide) 256#32 w).val = w.toNat := by
  -- the word is below `2 ^ 31`, so it reads the same signed and unsigned
  have hlt : w.toNat < 2 ^ 31 := toNat_lt_of_toInt_nonneg w h0
  have hti : w.toInt = (w.toNat : ℤ) := StableHlo.Predicate.toInt_eq_toNat_of_lt hlt
  -- it is not negative, so the normalisation leaves it alone
  have hcmp : IntOp.cmpi .slt w 0#32 = 0#1 := by
    apply ValueIdx.eq_zero_of_ne_one
    intro hc
    have hneg := (StableHlo.Predicate.slt_iff_toNat (a := w) (b := 0#32) hlt (by decide)).mp hc
    simp at hneg
  have hwrap : wrap 256#32 w = w := by
    unfold wrap
    rw [hcmp, ValueIdx.select_zero]
  -- and the clamp at 255 does not bite
  show min (wrap 256#32 w).toInt.toNat (256 - 1) = w.toNat
  rw [hwrap, hti, Int.toNat_natCast]
  omega

/-- In range, the equality test of the position word against column `n`, converted to a float (its bit read
    unsigned), is the indicator of `pos = n`. -/
theorem indicator_of_range (w : BitVec 32) (h0 : 0 ≤ w.toInt) (h1 : w.toInt < 256) (n : Fin 256) :
    ((((IntOp.cmpi .eq w (BitVec.ofNat 32 n.val)).toNat : ℝ)) : EReal)
      = if pos 256 (by decide) 256#32 w = n then (1 : EReal) else 0 := by
  have hpv := pos_val_of_range w h0 h1
  have hn : n.val < 2 ^ 32 := by have := n.isLt; omega
  by_cases h : w = BitVec.ofNat 32 n.val
  · -- the word is column `n`: the test is the bit 1 and the position is `n`
    have hc : IntOp.cmpi .eq w (BitVec.ofNat 32 n.val) = 1#1 := StableHlo.Predicate.cmpi_eq_iff.mpr h
    have hp : pos 256 (by decide) 256#32 w = n := by
      apply Fin.ext
      rw [hpv, h, BitVec.toNat_ofNat, Nat.mod_eq_of_lt hn]
    rw [hc, if_pos hp]
    simp
  · -- the word is not column `n`: the test is the bit 0, and the position, the word's own value, is not `n`
    have hc : IntOp.cmpi .eq w (BitVec.ofNat 32 n.val) = 0#1 :=
      ValueIdx.eq_zero_of_ne_one (fun hc => h (StableHlo.Predicate.cmpi_eq_iff.mp hc))
    have hp : ¬ pos 256 (by decide) 256#32 w = n := by
      intro hp
      apply h
      apply BitVec.eq_of_toNat_eq
      rw [BitVec.toNat_ofNat, Nat.mod_eq_of_lt hn, ← hpv, hp]
    rw [hc, if_neg hp]
    simp

/-- The gate of finite weights is a real number. -/
theorem gate_real (a1 : (⟨1, ![64]⟩ : Shape).Idx → EReal) (a11 a12 : (⟨1, ![64]⟩ : Shape).Idx → BitVec 32)
    (h : ∀ i, ∃ r : ℝ, a1 i = (r : EReal)) (a : Fin 64) : ∃ r : ℝ, gate a1 a11 a12 a = (r : EReal) := by
  obtain ⟨r, hr⟩ := h (ValueIdx.ix1 (pos 64 (by decide) 64#32 (a12 (ValueIdx.ix1 a))))
  -- a product of two reals, and its maximum with zero, are real
  refine ⟨max (r * ((a11 (ValueIdx.ix1 a)).toInt : ℝ)) 0, ?_⟩
  unfold gate
  rw [hr, EReal.coe_strictMono.monotone.map_max, EReal.coe_mul, EReal.coe_zero]

end Cert.Spec

end
-- ==== Proof.InputFacts.lean ====
/-
  What the precondition says of the inputs the proof uses: every entry of the data matrix, of the edge
  weights and of the first layer's weights is a real number, and every column position lies in `[0, 256)`.
-/
import proofs.«421247_j9603546873894_3_alg».proof.Pre_finite_inputs
import Idealize.ShloMosaic.PureOps.Ideal.Laws
import Idealize.ShloMosaic.Lib.ReduceAll
import Idealize.ShloMosaic.Lib.ValueIdx
import Idealize.ShloMosaic.Lib.StableHlo.Predicate

noncomputable section

namespace Cert.InputFacts

open Idealize.ShloMosaic Cert.Pre_finite_inputs

/-- An extended real whose absolute value `max x (-x)` is below `⊤` is a real number: at `⊥` and at `⊤` the
    maximum is `⊤` itself. -/
theorem real_of_abs_lt_top (x : EReal) (hx : max x (-x) < ⊤) : ∃ r : ℝ, x = (r : EReal) := by
  induction x using EReal.rec with
  | bot => simp at hx
  | coe r => exact ⟨r, rfl⟩
  | top => simp at hx

/-- The `f32` pattern `0x7F800000` (sign clear, exponent all ones, significand zero) denotes `+∞`. -/
theorem ofBits_inf : Ideal.ofBits .f32 0x7F800000#32 = (⊤ : EReal) := by
  simp [Ideal.ofBits, Ideal.ieee]

/-- The scalar shape has one index. -/
instance : Subsingleton S_.Idx := ⟨fun a b => funext fun d => d.elim0⟩

/-- An `and` of two `i1` arrays that is 1 at an index has both operands 1 there. -/
theorem both_of_andi {s : Shape} (x y : IVec s 1) (i : s.Idx) (e : andi x y i = 1#1) : x i = 1#1 ∧ y i = 1#1 :=
  IntOp.andi_eq_one.1 e

/-- One element of `|a| < +∞`: where the comparison word is 1, the entry is a real number. -/
theorem real_of_finite {s : Shape} (a : FVec Ideal s .f32) (hb : S_.BroadcastsInDim s ![]) (i : s.Idx)
    (e : cmpf .olt (Host.absf a) (broadcastInDim s ![] hb (constant S_ .f32 0x7F800000#32)) i = 1#1) :
    ∃ r : ℝ, a i = (r : EReal) := by
  -- a broadcast scalar constant reads the constant at every index
  have e' : Ideal.cmp .olt (max (a i) (-(a i))) (Ideal.ofBits .f32 0x7F800000#32) = 1#1 := e
  rw [ofBits_inf] at e'
  simp only [Ideal.cmp, StableHlo.Predicate.ofBool_eq_one_iff, decide_eq_true_eq] at e'
  exact real_of_abs_lt_top _ e'

/-- `jnp.all(|a| < +∞)`, the reduction by `and` over every axis, is 1: every entry of `a` is a real number. -/
theorem all_real {s : Shape} {axes : List (Fin s.rank)} (a : FVec Ideal s .f32) (hb : S_.BroadcastsInDim s ![])
    (hr : s.ReducesTo axes S_) (hu : 0 < S_.numel)
    (e : Host.reduce IntOp.andi (cmpf .olt (Host.absf a) (broadcastInDim s ![] hb (constant S_ .f32 0x7F800000#32)))
      (constantI S_ 1 1#1) hr hu ValueIdx.ix0 = 1#1) :
    ∀ i, ∃ r : ℝ, a i = (r : EReal) :=
  fun i => real_of_finite a hb i (Host.reduce_andi_all _ _ hr hu _ e i)

/-- `jnp.all((0 ≤ a) & (a < 256))` is 1: every entry of `a`, read signed, lies in `[0, 256)`. -/
theorem all_in_range {s : Shape} {axes : List (Fin s.rank)} (a : IVec s 32) (hb : S_.BroadcastsInDim s ![])
    (hr : s.ReducesTo axes S_) (hu : 0 < S_.numel)
    (e : Host.reduce IntOp.andi
      (andi (cmpi .sge a (broadcastInDim s ![] hb (constantI S_ 32 0#32)))
        (cmpi .slt a (broadcastInDim s ![] hb (constantI S_ 32 256#32))))
      (constantI S_ 1 1#1) hr hu ValueIdx.ix0 = 1#1) :
    ∀ i, 0 ≤ (a i).toInt ∧ (a i).toInt < 256 := by
  intro i
  obtain ⟨hge, hlt⟩ := both_of_andi _ _ i (Host.reduce_andi_all _ _ hr hu _ e i)
  -- a broadcast scalar constant reads the constant at every index
  have hge' : IntOp.cmpi .sge (a i) 0#32 = 1#1 := hge
  have hlt' : IntOp.cmpi .slt (a i) 256#32 = 1#1 := hlt
  have h0 : (0#32 : BitVec 32).toInt = 0 := by decide
  have h256 : (256#32 : BitVec 32).toInt = 256 := by decide
  have hge'' := IntOp.cmpi_sge.1 hge'
  have hlt'' := IntOp.cmpi_slt.1 hlt'
  rw [h0] at hge''
  rw [h256] at hlt''
  exact ⟨hge'', hlt''⟩

/-- The precondition, all ones, gives: `data`, `weights` and `W1` hold real numbers, and every entry of
    `data_idx`, read signed, is in `[0, 256)`. -/
theorem of_pre [Cert.Pre_finite_inputs.Facts]
    (a0 : FVec Ideal S500000x256 .f32) (a1 : FVec Ideal S64 .f32) (a2 : FVec Ideal S64x100 .f32)
    (a3 : FVec Ideal S100 .f32) (a4 : FVec Ideal S100x100 .f32) (a5 : FVec Ideal S100 .f32)
    (a6 : FVec Ideal S100x100 .f32) (a7 : FVec Ideal S100 .f32) (a8 : FVec Ideal S100x1 .f32)
    (a9 : FVec Ideal S1 .f32) (a10 a11 a12 : IVec S64 32)
    (h : Cert.Pre_finite_inputs.fn (F := Ideal) a0 a1 a2 a3 a4 a5 a6 a7 a8 a9 a10 a11 a12 = fun _ => 1#1) :
    (∀ i, ∃ r : ℝ, a0 i = (r : EReal)) ∧ (∀ i, ∃ r : ℝ, a1 i = (r : EReal)) ∧ (∀ i, ∃ r : ℝ, a2 i = (r : EReal))
      ∧ (∀ i, 0 ≤ (a10 i).toInt ∧ (a10 i).toInt < 256) := by
  have h0 := congrFun h ValueIdx.ix0
  unfold fn fn_part1 fn_part2 fn_part3 at h0
  dsimp only at h0
  -- the conjunction nests to the left: peel the last conjunct (the column positions), drop those of a9 … a3, keep a2, a1, a0
  obtain ⟨h1, hI⟩ := both_of_andi _ _ _ h0
  obtain ⟨h2, -⟩ := both_of_andi _ _ _ h1
  obtain ⟨h3, -⟩ := both_of_andi _ _ _ h2
  obtain ⟨h4, -⟩ := both_of_andi _ _ _ h3
  obtain ⟨h5, -⟩ := both_of_andi _ _ _ h4
  obtain ⟨h6, -⟩ := both_of_andi _ _ _ h5
  obtain ⟨h7, -⟩ := both_of_andi _ _ _ h6
  obtain ⟨h8, -⟩ := both_of_andi _ _ _ h7
  obtain ⟨h9, hA2⟩ := both_of_andi _ _ _ h8
  obtain ⟨hA0, hA1⟩ := both_of_andi _ _ _ h9
  exact ⟨all_real a0 _ _ _ hA0, all_real a1 _ _ _ hA1, all_real a2 _ _ _ hA2, all_in_range a10 _ _ _ hI⟩

end Cert.InputFacts

end
-- ==== Proof.KernelValue.lean ====
/-
  The kernel's result array is the specification's function of the arguments as launched. Grid point `t` writes
  back rows `5000·t … 5000·t + 4999`: the body's stored value at a row is the zero-padded perceptron of that row of
  the data (the staged weight arrays are whole arrays, the same at every point), which is the specification's row;
  the hundred blocks tile the array.
-/
import proofs.«421247_j9603546873894_3_alg».proof.Defs
import proofs.«421247_j9603546873894_3_alg».proof.Proof.Gen.KernelIdeal.Value
import proofs.«421247_j9603546873894_3_alg».proof.Proof.KernelHostRead
import proofs.«421247_j9603546873894_3_alg».proof.Proof.BodyValue
import proofs.«421247_j9603546873894_3_alg».proof.Proof.Fuse
import proofs.«421247_j9603546873894_3_alg».proof.Proof.SpecFacts
import proofs.«421247_j9603546873894_3_alg».proof.Proof.InputFacts
import proofs.«421247_j9603546873894_3_alg».proof.Proof.Gen.Pre_finite_inputs
import Idealize.ShloMosaic.Lib.Pipeline.Value

set_option maxRecDepth 16384

noncomputable section

namespace Cert.KernelIdeal.RowValue

open Cert.KernelIdeal Cert.KernelIdeal.Gen Cert.KernelIdeal.HostSide Idealize.ShloMosaic Idealize.ShloMosaic.TcCoe
open Idealize.SL.Sem Idealize.ShloMosaic.ValueIdx Cert.Mlp
open Idealize.ShloMosaic.Pipeline (Dat)

variable (m : (ℓ : Loc nD τ sig) → Buf (Elt Ideal) ℓ) (ρ : Dev nD → PrngReg)

/-- The specification at the arguments as launched on core `c`. -/
abbrev Gm (c : Dev nD) : S500000x1.Idx → EReal :=
  Spec.G (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (m (c, Proc.devRef .tc main_arg8)) (m (c, Proc.devRef .tc main_arg9)) (m (c, Proc.devRef .tc main_arg10)) (m (c, Proc.devRef .tc main_arg11)) (m (c, Proc.devRef .tc main_arg12))

/-- What the proof uses of the precondition, on core `c`: the data, the edge weights and the first layer's weights
    are real numbers, and the column positions are in `[0, 256)`. -/
structure InRange (c : Dev nD) : Prop where
  data : ∀ i, ∃ r : ℝ, (m (c, Proc.devRef .tc main_arg0)) i = (r : EReal)
  weights : ∀ i, ∃ r : ℝ, (m (c, Proc.devRef .tc main_arg1)) i = (r : EReal)
  w1 : ∀ i, ∃ r : ℝ, (m (c, Proc.devRef .tc main_arg2)) i = (r : EReal)
  cols : ∀ i, 0 ≤ ((m (c, Proc.devRef .tc main_arg10)) i).toInt ∧ ((m (c, Proc.devRef .tc main_arg10)) i).toInt < 256

theorem inRange_of_pre (hpre : Cert.Pre_KernelIdeal m) (c : Dev nD) : InRange m c := by
  obtain ⟨h0, h1, h2, h10⟩ := Cert.InputFacts.of_pre _ _ _ _ _ _ _ _ _ _ _ _ _ (hpre c)
  exact ⟨h0, h1, h2, h10⟩

theorem hz : (![0, 0] : Fin 2 → Nat) = fun _ => 0 := funext fun a => by fin_cases a <;> rfl

/-- The printed index maps over the grid: the data and result windows move one block of rows per point, the eight
    weight windows stay at block (0, 0). -/
theorem idx_facts : ∀ t : Fin cfg0.N,
    win0_0.index t (0 : Fin 2) = t.val ∧ win0_0.index t (1 : Fin 2) = 0
    ∧ win0_9.index t (0 : Fin 2) = t.val ∧ win0_9.index t (1 : Fin 2) = 0
    ∧ (∀ a : Fin 2, win0_1.index t a = 0) ∧ (∀ a : Fin 2, win0_2.index t a = 0)
    ∧ (∀ a : Fin 2, win0_3.index t a = 0) ∧ (∀ a : Fin 2, win0_4.index t a = 0)
    ∧ (∀ a : Fin 2, win0_5.index t a = 0) ∧ (∀ a : Fin 2, win0_6.index t a = 0)
    ∧ (∀ a : Fin 2, win0_7.index t a = 0) ∧ (∀ a : Fin 2, win0_8.index t a = 0) :=
  (by decide +kernel : ∀ t : Fin grid0.N, _)

theorem t_lt (t : Fin cfg0.N) : t.val < 100 := Nat.lt_of_lt_of_eq t.isLt N_0

/-! ## The input blocks at a point -/

/-- The data block at point `t` is rows `5000·t …` of the data. -/
theorem data_blk (c : Dev nD) (t : Fin cfg0.N) (p : Fin 5000) (n : Fin 256) :
    (iblk m c 0 t : Vec Ideal S5000x256 .f32) (ix2 p n)
      = (m (c, Proc.devRef .tc main_arg0)) (ix2 ⟨5000 * t.val + p.val, by have := t_lt t; have := p.isLt; omega⟩ n) := by
  obtain ⟨e0, e1, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 5000 + 1 * p.val = 5000 * t.val + p.val; rw [e0]; omega
  | ⟨1, _⟩ => show win0_0.index t (1 : Fin 2) * 256 + 1 * n.val = n.val; rw [e1]; omega

theorem blk1 (c : Dev nD) (t : Fin cfg0.N) (n : Fin 256) (j : Fin 128) :
    (iblk m c 1 t : Vec Ideal S256x128 .f32) (ix2 n j) = (V m c main_v16 : S256x128.Idx → EReal) (ix2 n j) := by
  obtain ⟨-, -, -, -, e, -⟩ := idx_facts t
  unfold iblk
  rw [View.read_apply]
  show V m c main_v16 _ = _
  refine congrArg _ (funext fun a => Fin.ext ?_)
  match a with
  | ⟨0, _⟩ => show win0_1.index t (0 : Fin 2) * 256 + 1 * n.val = n.val; rw [e 0]; omega
  | ⟨1, _⟩ => show win0_1.index t (1 : Fin 2) * 128 + 1 * j.val = j.val; rw [e 1]; omega

theorem blk2 (c : Dev nD) (t : Fin cfg0.N) (u : Fin 1) (j : Fin 128) :
    (iblk m c 2 t : Vec Ideal S1x128 .f32) (ix2 u j) = (V m c main_v18 : S1x128.Idx → EReal) (ix2 u j) := by
  obtain ⟨-, -, -, -, -, e, -⟩ := idx_facts t
  unfold iblk
  rw [View.read_apply]
  show V m c main_v18 _ = _
  refine congrArg _ (funext fun a => Fin.ext ?_)
  match a with
  | ⟨0, _⟩ => show win0_2.index t (0 : Fin 2) * 1 + 1 * u.val = u.val; rw [e 0]; omega
  | ⟨1, _⟩ => show win0_2.index t (1 : Fin 2) * 128 + 1 * j.val = j.val; rw [e 1]; omega

theorem blk3 (c : Dev nD) (t : Fin cfg0.N) (k : Fin 128) (j : Fin 128) :
    (iblk m c 3 t : Vec Ideal S128x128 .f32) (ix2 k j) = (V m c main_v19 : S128x128.Idx → EReal) (ix2 k j) := by
  obtain ⟨-, -, -, -, -, -, e, -⟩ := idx_facts t
  unfold iblk
  rw [View.read_apply]
  show V m c main_v19 _ = _
  refine congrArg _ (funext fun a => Fin.ext ?_)
  match a with
  | ⟨0, _⟩ => show win0_3.index t (0 : Fin 2) * 128 + 1 * k.val = k.val; rw [e 0]; omega
  | ⟨1, _⟩ => show win0_3.index t (1 : Fin 2) * 128 + 1 * j.val = j.val; rw [e 1]; omega

theorem blk4 (c : Dev nD) (t : Fin cfg0.N) (u : Fin 1) (j : Fin 128) :
    (iblk m c 4 t : Vec Ideal S1x128 .f32) (ix2 u j) = (V m c main_v21 : S1x128.Idx → EReal) (ix2 u j) := by
  obtain ⟨-, -, -, -, -, -, -, e, -⟩ := idx_facts t
  unfold iblk
  rw [View.read_apply]
  show V m c main_v21 _ = _
  refine congrArg _ (funext fun a => Fin.ext ?_)
  match a with
  | ⟨0, _⟩ => show win0_4.index t (0 : Fin 2) * 1 + 1 * u.val = u.val; rw [e 0]; omega
  | ⟨1, _⟩ => show win0_4.index t (1 : Fin 2) * 128 + 1 * j.val = j.val; rw [e 1]; omega

theorem blk5 (c : Dev nD) (t : Fin cfg0.N) (k : Fin 128) (j : Fin 128) :
    (iblk m c 5 t : Vec Ideal S128x128 .f32) (ix2 k j) = (V m c main_v22 : S128x128.Idx → EReal) (ix2 k j) := by
  obtain ⟨-, -, -, -, -, -, -, -, e, -⟩ := idx_facts t
  unfold iblk
  rw [View.read_apply]
  show V m c main_v22 _ = _
  refine congrArg _ (funext fun a => Fin.ext ?_)
  match a with
  | ⟨0, _⟩ => show win0_5.index t (0 : Fin 2) * 128 + 1 * k.val = k.val; rw [e 0]; omega
  | ⟨1, _⟩ => show win0_5.index t (1 : Fin 2) * 128 + 1 * j.val = j.val; rw [e 1]; omega

theorem blk6 (c : Dev nD) (t : Fin cfg0.N) (u : Fin 1) (j : Fin 128) :
    (iblk m c 6 t : Vec Ideal S1x128 .f32) (ix2 u j) = (V m c main_v24 : S1x128.Idx → EReal) (ix2 u j) := by
  obtain ⟨-, -, -, -, -, -, -, -, -, e, -⟩ := idx_facts t
  unfold iblk
  rw [View.read_apply]
  show V m c main_v24 _ = _
  refine congrArg _ (funext fun a => Fin.ext ?_)
  match a with
  | ⟨0, _⟩ => show win0_6.index t (0 : Fin 2) * 1 + 1 * u.val = u.val; rw [e 0]; omega
  | ⟨1, _⟩ => show win0_6.index t (1 : Fin 2) * 128 + 1 * j.val = j.val; rw [e 1]; omega

theorem blk7 (c : Dev nD) (t : Fin cfg0.N) (k : Fin 128) (u : Fin 1) :
    (iblk m c 7 t : Vec Ideal S128x1 .f32) (ix2 k u) = (V m c main_v25 : S128x1.Idx → EReal) (ix2 k u) := by
  obtain ⟨-, -, -, -, -, -, -, -, -, -, e, -⟩ := idx_facts t
  unfold iblk
  rw [View.read_apply]
  show V m c main_v25 _ = _
  refine congrArg _ (funext fun a => Fin.ext ?_)
  match a with
  | ⟨0, _⟩ => show win0_7.index t (0 : Fin 2) * 128 + 1 * k.val = k.val; rw [e 0]; omega
  | ⟨1, _⟩ => show win0_7.index t (1 : Fin 2) * 1 + 1 * u.val = u.val; rw [e 1]; omega

theorem blk8 (c : Dev nD) (t : Fin cfg0.N) (u v : Fin 1) :
    (iblk m c 8 t : Vec Ideal S1x1 .f32) (ix2 u v) = (V m c main_v26 : S1x1.Idx → EReal) (ix2 u v) := by
  obtain ⟨-, -, -, -, -, -, -, -, -, -, -, e⟩ := idx_facts t
  unfold iblk
  rw [View.read_apply]
  show V m c main_v26 _ = _
  refine congrArg _ (funext fun a => Fin.ext ?_)
  match a with
  | ⟨0, _⟩ => show win0_8.index t (0 : Fin 2) * 1 + 1 * u.val = u.val; rw [e 0]; omega
  | ⟨1, _⟩ => show win0_8.index t (1 : Fin 2) * 1 + 1 * v.val = v.val; rw [e 1]; omega

/-! ## One row of one block -/

/-- The specification at an index depends on the index's row only. -/
theorem G_row (c : Dev nD) (i : S500000x1.Idx) (r : Fin 500000) (h : (i 0).val = r.val) :
    Gm m c i
      = lin
          (aff
            (aff
              (aff (Spec.input (m (c, Proc.devRef .tc main_arg0)) (m (c, Proc.devRef .tc main_arg1)) (m (c, Proc.devRef .tc main_arg10)) (m (c, Proc.devRef .tc main_arg11)) (m (c, Proc.devRef .tc main_arg12)) r)
                (fun a j => (m (c, Proc.devRef .tc main_arg2)) (ix2 a j)) (fun j => (m (c, Proc.devRef .tc main_arg3)) (ix1 j)))
              (fun k j => (m (c, Proc.devRef .tc main_arg4)) (ix2 k j)) (fun j => (m (c, Proc.devRef .tc main_arg5)) (ix1 j)))
            (fun k j => (m (c, Proc.devRef .tc main_arg6)) (ix2 k j)) (fun j => (m (c, Proc.devRef .tc main_arg7)) (ix1 j)))
          (fun k => (m (c, Proc.devRef .tc main_arg8)) (ix2 k (0 : Fin 1))) ((m (c, Proc.devRef .tc main_arg9)) (ix1 (0 : Fin 1))) := by
  have hr : (⟨(i 0).val, (i 0).isLt⟩ : Fin 500000) = r := Fin.ext h
  unfold Gm Spec.G
  rw [hr]

/-- THE BODY'S STORED VALUE at row `p` of point `t` is the specification at row `5000·t + p`. -/
theorem row_value (c : Dev nD) (hR : InRange m c) (t : Fin cfg0.N) (p : Fin 5000) (i : S500000x1.Idx)
    (hi : (i 0).val = 5000 * t.val + p.val) :
    k0_pay1 (k0_pay2 (iblk m c 0 t) (iblk m c 1 t) (iblk m c 2 t) (iblk m c 3 t) (iblk m c 4 t) (iblk m c 5 t) (iblk m c 6 t))
        (k0_pay3 (iblk m c 7 t)) (iblk m c 8 t) (ix2 p (0 : Fin 1))
      = Gm m c i := by
  refine (BodyValue.pay_apply (iblk m c 0 t) (iblk m c 1 t) (iblk m c 2 t) (iblk m c 3 t) (iblk m c 4 t) (iblk m c 5 t)
    (iblk m c 6 t) (iblk m c 7 t) (iblk m c 8 t) p).trans ?_
  rw [G_row m c i ⟨5000 * t.val + p.val, by have := t_lt t; have := p.isLt; omega⟩ hi]
  have h0 : (fun n => (iblk m c 0 t : Vec Ideal S5000x256 .f32) (ix2 p n))
      = fun n => (m (c, Proc.devRef .tc main_arg0)) (ix2 ⟨5000 * t.val + p.val, by have := t_lt t; have := p.isLt; omega⟩ n) :=
    funext fun n => data_blk m c t p n
  have h1 : (fun n j => (iblk m c 1 t : Vec Ideal S256x128 .f32) (ix2 n j))
      = padM 256 128 (fun (n : Fin 256) (j : Fin 100) =>
          ∑ a : Fin 64, (onehotT (m (c, Proc.devRef .tc main_arg10)) (ix2 a n) * Spec.gate (m (c, Proc.devRef .tc main_arg1)) (m (c, Proc.devRef .tc main_arg11)) (m (c, Proc.devRef .tc main_arg12)) a) * (m (c, Proc.devRef .tc main_arg2)) (ix2 a j)) := by
    rw [← m1T_apply, ← V_m1 m c]
    exact funext fun n => funext fun j => blk1 m c t n j
  have h2 : (fun j => (iblk m c 2 t : Vec Ideal S1x128 .f32) (ix2 (0 : Fin 1) j)) = padV 128 (fun (j : Fin 100) => (m (c, Proc.devRef .tc main_arg3)) (ix1 j)) := by
    rw [← biasT_apply, ← V_b1 m c]
    exact funext fun j => blk2 m c t 0 j
  have h3 : (fun k j => (iblk m c 3 t : Vec Ideal S128x128 .f32) (ix2 k j)) = padM 128 128 (fun (k j : Fin 100) => (m (c, Proc.devRef .tc main_arg4)) (ix2 k j)) := by
    rw [← hiddenT_apply, ← V_w2 m c]
    exact funext fun k => funext fun j => blk3 m c t k j
  have h4 : (fun j => (iblk m c 4 t : Vec Ideal S1x128 .f32) (ix2 (0 : Fin 1) j)) = padV 128 (fun (j : Fin 100) => (m (c, Proc.devRef .tc main_arg5)) (ix1 j)) := by
    rw [← biasT_apply, ← V_b2 m c]
    exact funext fun j => blk4 m c t 0 j
  have h5 : (fun k j => (iblk m c 5 t : Vec Ideal S128x128 .f32) (ix2 k j)) = padM 128 128 (fun (k j : Fin 100) => (m (c, Proc.devRef .tc main_arg6)) (ix2 k j)) := by
    rw [← hiddenT_apply, ← V_w3 m c]
    exact funext fun k => funext fun j => blk5 m c t k j
  have h6 : (fun j => (iblk m c 6 t : Vec Ideal S1x128 .f32) (ix2 (0 : Fin 1) j)) = padV 128 (fun (j : Fin 100) => (m (c, Proc.devRef .tc main_arg7)) (ix1 j)) := by
    rw [← biasT_apply, ← V_b3 m c]
    exact funext fun j => blk6 m c t 0 j
  have h7 : (fun k => (iblk m c 7 t : Vec Ideal S128x1 .f32) (ix2 k (0 : Fin 1))) = padV 128 (fun (k : Fin 100) => (m (c, Proc.devRef .tc main_arg8)) (ix2 k (0 : Fin 1))) := by
    rw [← lastT_apply, ← V_w4 m c]
    exact funext fun k => blk7 m c t k 0
  have h8 : (iblk m c 8 t : Vec Ideal S1x1 .f32) (ix2 (0 : Fin 1) (0 : Fin 1)) = (m (c, Proc.devRef .tc main_arg9)) (ix1 (0 : Fin 1)) := by
    exact (blk8 m c t 0 0).trans ((congrFun (V_b4 m c) _).trans (b4T_apply _))
  rw [h0, h1, h2, h3, h4, h5, h6, h7, h8]
  exact row_eq _ (Spec.gate (m (c, Proc.devRef .tc main_arg1)) (m (c, Proc.devRef .tc main_arg11)) (m (c, Proc.devRef .tc main_arg12))) (Spec.col (m (c, Proc.devRef .tc main_arg10)))
    (fun a n => onehotT (m (c, Proc.devRef .tc main_arg10)) (ix2 a n)) (fun a j => (m (c, Proc.devRef .tc main_arg2)) (ix2 a j)) _ _ _ _ _ _ _
    (fun a n => (onehotT_apply _ a n).trans (Spec.indicator_of_range _ (hR.cols (ix1 a)).1 (hR.cols (ix1 a)).2 n))
    (fun n => hR.data _) (fun a => Spec.gate_real _ _ _ hR.weights a) (fun a j => hR.w1 _)

/-! ## The blocks and the array -/

/-- WHAT POINT `t` WRITES BACK is block `t` of the specification. -/
theorem flushed_eq (c : Dev nD) (hR : InRange m c) (t : Fin cfg0.N) :
    (dats m 0 c).flushed 9 t = ((cfg0.win 9).blk t).view.read (Elt Ideal) (Gm m c) := by
  obtain ⟨-, -, e0, e1, -⟩ := idx_facts t
  rw [Value.flushed9]
  unfold out0_9
  rw [View.canon_unit_zero hz]
  simp only [View.ld_unit_zero (S := S5000x256) hz, View.ld_unit_zero (S := S256x128) hz, View.ld_unit_zero (S := S1x128) hz,
    View.ld_unit_zero (S := S128x128) hz, View.ld_unit_zero (S := S128x1) hz, View.ld_unit_zero (S := S1x1) hz]
  funext y
  revert y
  show ∀ y : S5000x1.Idx, k0_pay1 (F := Ideal) _ _ _ y = Gm m c (((cfg0.win 9).blk t).view.emb y)
  intro y
  have h1 : (y 1).val < 1 := idx2_lt1 y
  have hy : y = ix2 (y 0) (0 : Fin 1) := by
    funext a
    match a with
    | ⟨0, _⟩ => rfl
    | ⟨1, _⟩ => exact Fin.ext (by show (y 1).val = 0; omega)
  rw [hy]
  refine row_value m c hR t (y 0) _ ?_
  show win0_9.index t (0 : Fin 2) * 5000 + 1 * (y 0).val = 5000 * t.val + (y 0).val
  rw [e0]
  omega

/-- An index of the result array is in point `t`'s block iff its row is among the block's rows. -/
theorem mem_blk (t : Fin cfg0.N) (i : S500000x1.Idx) :
    i ∈ ((cfg0.win 9).blk t).view.set ↔ ∀ a : Fin 2, win0_9.index t a * S5000x1.size a ≤ (i a).val ∧ (i a).val < win0_9.index t a * S5000x1.size a + S5000x1.size a := by
  show i ∈ ((View.whole main_v27).slice (win0_9.rect t)).set ↔ _
  rw [View.set_slice_whole, Rect.mem_set_unit]
  exact Iff.rfl

/-- THE ARRAY after the run is the specification: row `r` is in the block of point `r / 5000`. -/
theorem final (c : Dev nD) (hR : InRange m c) : (dats m 0 c).arrAt 9 cfg0.N = Gm m c :=
  (dats m 0 c).arrAt_eq_of_cover 9 (Gm m c) (fun t _ => flushed_eq m c hR t) fun i => by
    have hi0 : (i 0).val < 500000 := (i 0).isLt
    have hi1 : (i 1).val < 1 := (i 1).isLt
    let t : Fin cfg0.N := ⟨(i 0).val / 5000, by rw [show cfg0.N = 100 from N_0]; omega⟩
    obtain ⟨-, -, e0, e1, -⟩ := idx_facts t
    refine ⟨t, flush0_9 t, ?_⟩
    rw [mem_blk]
    intro a
    match a with
    | ⟨0, _⟩ =>
      show win0_9.index t (0 : Fin 2) * 5000 ≤ (i 0).val ∧ (i 0).val < win0_9.index t (0 : Fin 2) * 5000 + 5000
      rw [e0]
      show (i 0).val / 5000 * 5000 ≤ (i 0).val ∧ (i 0).val < (i 0).val / 5000 * 5000 + 5000
      omega
    | ⟨1, _⟩ =>
      show win0_9.index t (1 : Fin 2) * 1 ≤ (i 1).val ∧ (i 1).val < win0_9.index t (1 : Fin 2) * 1 + 1
      rw [e1]
      omega

/-! ## The run, read -/

/-- The frame run re-posted: the result array at the specification, the arguments unchanged. -/
theorem run (hpre : Cert.Pre_KernelIdeal m) :
    θ_run defs (onTc (τ := τ) (main (F := Ideal))) ⟨m, fun _ => 0, ρ⟩ fun r => ∀ c : Dev nD,
      r.2.mem ((c : Thread nD τ).loc main_v27) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1.trans (final m c (inRange_of_pre m hpre c)), (h c).2⟩)
    (Value.run_blocks m ρ)

end Cert.KernelIdeal.RowValue

end
-- ==== Proof.LibGather.lean ====
/-
  The host's gather that selects columns of a matrix by a table of positions, read at an index.
-/
import Idealize.ShloMosaic.PureOps
import Idealize.ShloMosaic.Lib.ValueIdx

noncomputable section

namespace Cert.LibGather

open Idealize.ShloMosaic Idealize.ShloMosaic.ValueIdx

/-- An entry of a one-element list is that element, whatever the position. -/
theorem getElem_of_eq_singleton {β : Type} {l : List β} {x : β} (hl : l = [x]) (k : Nat) (hk : k < l.length) :
    l[k]'hk = x := by
  subst hl
  have hk0 : k = 0 := by simpa using hk
  subst hk0
  rfl

/-- SELECTING COLUMNS. A gather over a [B, N] matrix whose start indices are an [A, 1] column of positions, the
    rows kept whole (axis 0 an offset axis of slice size B) and axis 1 collapsed and start-indexed: entry (r, a)
    is the matrix at row r and the column position a's start index names, read signed and clamped into
    `[0, N - 1]`. -/
theorem gather_cols {α : Type} {B N A w : ℕ} (d : GatherDims ⟨2, ![B, N]⟩ ⟨2, ![A, 1]⟩ ⟨2, ![B, A]⟩)
    (hoff : d.offsetDims = [0]) (hcoll : d.collapsedSliceDims = [1]) (hob : d.operandBatchingDims = [])
    (hsb : d.startIndicesBatchingDims = []) (hsim : d.startIndexMap = [1]) (hivd : d.indexVectorDim = 1)
    (x : (⟨2, ![B, N]⟩ : Shape).Idx → α) (idx : IVec ⟨2, ![A, 1]⟩ w) (r : Fin B) (a : Fin A) (hN : 0 < N) :
    Host.gather d x idx (ix2 r a)
      = x (ix2 r ⟨min (idx (ix2 a (0 : Fin 1))).toInt.toNat (N - 1), by omega⟩) := by
  -- the axes kept on each side: the operand's one offset axis is 0, the result's one batch axis is 1
  have hsK : d.sKept = [0] := by
    show (List.finRange 2).filter (· ∉ d.collapsedSliceDims ++ d.operandBatchingDims) = [0]
    rw [hcoll, hob]; rfl
  have hbD : d.batchDims = [1] := by
    show (List.finRange 2).filter (· ∉ d.offsetDims) = [1]
    rw [hoff]; rfl
  have hlen : d.startIndexMap.length = 1 := by rw [hsim]; rfl
  -- the start-index entry result position (r, a) reads is row a of the column of positions
  have hsi : ∀ c, d.siIdx (ix2 r a) c = ix2 a (0 : Fin 1) := by
    intro c
    funext b
    match b with
    | ⟨0, _⟩ =>
      unfold GatherDims.siIdx
      rw [dif_neg (by rw [hivd]; simp)]
      unfold GatherDims.siCoord
      apply Fin.ext
      simp only [Fin.val_cast]
      rw [getElem_of_eq_singleton hbD]
      rfl
    | ⟨1, _⟩ =>
      unfold GatherDims.siIdx
      rw [dif_pos (by rw [hivd])]
      apply Fin.ext
      show c.val = 0
      have := c.isLt
      omega
  unfold Host.gather
  congr 1
  funext ax
  apply Fin.ext
  match ax with
  | ⟨0, h0⟩ =>
    -- axis 0, the offset axis: no start index, no batch coordinate, the result's row
    have hb : (⟨0, h0⟩ : Fin 2) ∉ d.operandBatchingDims := by rw [hob]; exact List.not_mem_nil
    have hm : (⟨0, h0⟩ : Fin 2) ∉ d.startIndexMap := by
      rw [hsim, List.mem_singleton]; intro e; exact Nat.zero_ne_one (congrArg Fin.val e)
    have hk : (⟨0, h0⟩ : Fin 2) ∈ d.sKept := by rw [hsK]; exact List.mem_singleton.mpr rfl
    simp only [GatherDims.operandIdx, GatherDims.batchCoord_eq_zero _ _ _ hb, GatherDims.start, dif_neg hm,
      GatherDims.offCoord, dif_pos hk, Nat.zero_add, Nat.add_zero]
    rw [getElem_of_eq_singleton hoff]
    rfl
  | ⟨1, h1⟩ =>
    -- axis 1, collapsed and start-indexed: the clamped start index alone
    have hb : (⟨1, h1⟩ : Fin 2) ∉ d.operandBatchingDims := by rw [hob]; exact List.not_mem_nil
    have hk : (⟨1, h1⟩ : Fin 2) ∉ d.sKept := by
      rw [hsK, List.mem_singleton]; intro e; exact Nat.one_ne_zero (congrArg Fin.val e)
    have hm : (⟨1, h1⟩ : Fin 2) ∈ d.startIndexMap := by rw [hsim]; exact List.mem_singleton.mpr rfl
    have hsl : d.sliceSizes ⟨1, h1⟩ = 1 := d.slice_collapsed _ (by rw [hcoll]; exact List.mem_singleton.mpr rfl)
    simp only [GatherDims.operandIdx, GatherDims.batchCoord_eq_zero _ _ _ hb, GatherDims.offCoord_eq_zero _ _ _ hk,
      Nat.add_zero, GatherDims.start, dif_pos hm]
    rw [hsi, hsl]
    rfl

end Cert.LibGather

end
-- ==== Proof.RefValue.lean ====
/-
  The reference computes the specification: its result, read index by index through the operations of its
  run, is the perceptron of the selected, gated columns.
-/
import proofs.«421247_j9603546873894_3_alg».proof.Proof.Gen.ReferenceIdeal.Read
import proofs.«421247_j9603546873894_3_alg».proof.Proof.Spec
import proofs.«421247_j9603546873894_3_alg».proof.Proof.LibGather
import Idealize.ShloMosaic.Lib.StableHlo.Predicate
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open Cert.Mlp Cert.Spec

section Layers

variable (x0 : (⟨S500000x256, .f32⟩ : BufTy).Contents (Elt Ideal)) (x1 : (⟨S64, .f32⟩ : BufTy).Contents (Elt Ideal))
  (x2 : (⟨S64x100, .f32⟩ : BufTy).Contents (Elt Ideal)) (x3 : (⟨S100, .f32⟩ : BufTy).Contents (Elt Ideal))
  (x4 : (⟨S100x100, .f32⟩ : BufTy).Contents (Elt Ideal)) (x5 : (⟨S100, .f32⟩ : BufTy).Contents (Elt Ideal))
  (x6 : (⟨S100x100, .f32⟩ : BufTy).Contents (Elt Ideal)) (x7 : (⟨S100, .f32⟩ : BufTy).Contents (Elt Ideal))
  (x8 : (⟨S100x1, .f32⟩ : BufTy).Contents (Elt Ideal)) (x9 : (⟨S1, .f32⟩ : BufTy).Contents (Elt Ideal))
  (x10 x11 x12 : (⟨S64, .i32⟩ : BufTy).Contents (Elt Ideal))

/-- The two spellings of a rank-1 index agree. -/
theorem ofFin_eq_ix1 {n : ℕ} (p : Fin n) : Shape.Idx.ofFin p = ix1 p := by
  funext d
  match d with
  | ⟨0, _⟩ => rfl

/-! ### The gate: `max (weights[wpos a] · direction a) 0` -/

/-- The normalised weight position of edge `a`: the select of `x + 64` where `x < 0`. -/
theorem v4_eq (a : Fin 64) : val_main_v4 (F := Ideal) x12 (ix1 a) = wrap 64#32 (x12 (ix1 a)) := by
  rw [val_main_v4_apply, val_main_v1_apply, val_main_v3_apply, val_main_v0_apply, val_main_v2_apply, val_main_c_apply,
    val_main_c_0_apply]
  rfl

/-- The gathered weight of edge `a` is the weight at its clamped, normalised position. -/
theorem v6_eq (a : Fin 64) :
    val_main_v6 (F := Ideal) x1 x12 (ix1 a) = x1 (ix1 (pos 64 (by decide) 64#32 (x12 (ix1 a)))) := by
  have h5 : val_main_v5 (F := Ideal) x12 (StableHlo.Predicate.ixP a) = wrap 64#32 (x12 (ix1 a)) := by
    rw [val_main_v5_apply]
    have hi : idx_main_v5 (StableHlo.Predicate.ixP a) = ix1 a := by
      funext d
      match d with
      | ⟨0, _⟩ => rfl
    rw [hi, v4_eq]
  have hg := StableHlo.Predicate.gather_take gather_S64_S64x1_S64_n_0_n_n_0_1_1 rfl rfl rfl rfl x1
    (val_main_v5 (F := Ideal) x12) a (by decide)
  simp only [ofFin_eq_ix1, h5] at hg
  exact hg

/-- STAGE 1. Edge `a`'s gate. -/
theorem gate_eq (a : Fin 64) : val_main_v9 (F := Ideal) x1 x11 x12 (ix1 a) = gate x1 x11 x12 a := by
  rw [val_main_v9_apply, val_main_v8_apply, v6_eq, val_main_v7_apply, val_main_call0_v0_apply, val_main_call0_cst_apply]
  show max (x1 _ * (((x11 (ix1 a)).toInt : ℝ) : EReal)) (Ideal.ofBits .f32 0x00000000#32) = _
  rw [Ideal.ofBits_zero_f32]
  rfl

/-! ### The perceptron's input: the selected column times the gate -/

/-- The normalised column position of edge `a`: the select of `x + 256` where `x < 0`. -/
theorem v14_eq (a : Fin 64) : val_main_v14 (F := Ideal) x10 (ix1 a) = wrap 256#32 (x10 (ix1 a)) := by
  rw [val_main_v14_apply, val_main_v11_apply, val_main_v13_apply, val_main_v10_apply, val_main_v12_apply,
    val_main_c_1_apply, val_main_c_2_apply]
  rfl

/-- The gathered column: entry `(r, a)` is the data at row `r` and edge `a`'s column. -/
theorem v16_eq (r : Fin 500000) (a : Fin 64) :
    val_main_v16 (F := Ideal) x0 x10 (ix2 r a) = x0 (ix2 r (col x10 a)) := by
  have h15 : val_main_v15 (F := Ideal) x10 (ix2 a (0 : Fin 1)) = wrap 256#32 (x10 (ix1 a)) := by
    rw [val_main_v15_apply]
    have hi : idx_main_v15 (ix2 a (0 : Fin 1)) = ix1 a := by
      funext d
      match d with
      | ⟨0, _⟩ => rfl
    rw [hi, v14_eq]
  have hg := Cert.LibGather.gather_cols gather_S500000x256_S64x1_S500000x64_0_1_n_n_1_1_5000001 rfl rfl rfl rfl rfl rfl x0
    (val_main_v15 (F := Ideal) x10) r a (by decide)
  simp only [h15] at hg
  exact hg

/-- The gate laid along the rows: entry `(r, a)` is edge `a`'s gate. -/
theorem v18_eq (r : Fin 500000) (a : Fin 64) :
    val_main_v18 (F := Ideal) x1 x11 x12 (ix2 r a) = gate x1 x11 x12 a := by
  rw [val_main_v18_apply, val_main_v17_apply]
  have hi : idx_main_v17 (idx_main_v18 (ix2 r a)) = ix1 a := by
    funext d
    match d with
    | ⟨0, _⟩ => rfl
  rw [hi, gate_eq]

/-- STAGE 2. The perceptron's input at row `r`, edge `a`. -/
theorem input_eq (r : Fin 500000) (a : Fin 64) :
    val_main_v19 (F := Ideal) x0 x1 x10 x11 x12 (ix2 r a) = input x0 x1 x10 x11 x12 r a := by
  rw [val_main_v19_apply, v16_eq, v18_eq]
  rfl

/-! ### The layers -/

/-- STAGE 3. The first layer at row `r`, unit `j`. -/
theorem layer1_eq (r : Fin 500000) (j : Fin 100) :
    val_main_v24 (F := Ideal) x0 x1 x2 x3 x10 x11 x12 (ix2 r j)
      = aff (input x0 x1 x10 x11 x12 r) (fun a j => x2 (ix2 a j)) (fun j => x3 (ix1 j)) j := by
  have hl : ∀ k : Fin 64, lidx_main_v20 (ix2 r j) k = ix2 r k := fun k =>
    funext fun d => match d with | ⟨0, _⟩ => rfl | ⟨1, _⟩ => rfl
  have hr : ∀ k : Fin 64, ridx_main_v20 (ix2 r j) k = ix2 k j := fun k =>
    funext fun d => match d with | ⟨0, _⟩ => rfl | ⟨1, _⟩ => rfl
  have hb : idx_main_v21 (idx_main_v22 (ix2 r j)) = ix1 j :=
    funext fun d => match d with | ⟨0, _⟩ => rfl
  have hsum : ∑ k : Fin 64, val_main_v19 (F := Ideal) x0 x1 x10 x11 x12 (lidx_main_v20 (ix2 r j) k) * x2 (ridx_main_v20 (ix2 r j) k)
      = ∑ k : Fin 64, input x0 x1 x10 x11 x12 r k * x2 (ix2 k j) :=
    Finset.sum_congr rfl (fun k _ => by rw [hl k, hr k, input_eq])
  rw [val_main_v24_apply, val_main_v23_apply, val_main_v20_apply, val_main_v22_apply, val_main_v21_apply,
    val_main_call1_v0_apply, val_main_call1_cst_apply, hsum, hb]
  show max (_ + x3 (ix1 j)) (Ideal.ofBits .f32 0x00000000#32) = _
  rw [Ideal.ofBits_zero_f32]
  rfl

/-- STAGE 4. The second layer at row `r`, unit `j`. -/
theorem layer2_eq (r : Fin 500000) (j : Fin 100) :
    val_main_v29 (F := Ideal) x0 x1 x2 x3 x4 x5 x10 x11 x12 (ix2 r j)
      = aff (aff (input x0 x1 x10 x11 x12 r) (fun a j => x2 (ix2 a j)) (fun j => x3 (ix1 j)))
          (fun k j => x4 (ix2 k j)) (fun j => x5 (ix1 j)) j := by
  have hl : ∀ k : Fin 100, lidx_main_v25 (ix2 r j) k = ix2 r k := fun k =>
    funext fun d => match d with | ⟨0, _⟩ => rfl | ⟨1, _⟩ => rfl
  have hr : ∀ k : Fin 100, ridx_main_v25 (ix2 r j) k = ix2 k j := fun k =>
    funext fun d => match d with | ⟨0, _⟩ => rfl | ⟨1, _⟩ => rfl
  have hb : idx_main_v26 (idx_main_v27 (ix2 r j)) = ix1 j :=
    funext fun d => match d with | ⟨0, _⟩ => rfl
  have hsum : ∑ k : Fin 100, val_main_v24 (F := Ideal) x0 x1 x2 x3 x10 x11 x12 (lidx_main_v25 (ix2 r j) k) * x4 (ridx_main_v25 (ix2 r j) k)
      = ∑ k : Fin 100, aff (input x0 x1 x10 x11 x12 r) (fun a j => x2 (ix2 a j)) (fun j => x3 (ix1 j)) k * x4 (ix2 k j) :=
    Finset.sum_congr rfl (fun k _ => by rw [hl k, hr k, layer1_eq])
  rw [val_main_v29_apply, val_main_v28_apply, val_main_v25_apply, val_main_v27_apply, val_main_v26_apply,
    val_main_call2_v0_apply, val_main_call2_cst_apply, hsum, hb]
  show max (_ + x5 (ix1 j)) (Ideal.ofBits .f32 0x00000000#32) = _
  rw [Ideal.ofBits_zero_f32]
  rfl

/-- STAGE 5. The third layer at row `r`, unit `j`. -/
theorem layer3_eq (r : Fin 500000) (j : Fin 100) :
    val_main_v34 (F := Ideal) x0 x1 x2 x3 x4 x5 x6 x7 x10 x11 x12 (ix2 r j)
      = aff (aff (aff (input x0 x1 x10 x11 x12 r) (fun a j => x2 (ix2 a j)) (fun j => x3 (ix1 j)))
          (fun k j => x4 (ix2 k j)) (fun j => x5 (ix1 j))) (fun k j => x6 (ix2 k j)) (fun j => x7 (ix1 j)) j := by
  have hl : ∀ k : Fin 100, lidx_main_v30 (ix2 r j) k = ix2 r k := fun k =>
    funext fun d => match d with | ⟨0, _⟩ => rfl | ⟨1, _⟩ => rfl
  have hr : ∀ k : Fin 100, ridx_main_v30 (ix2 r j) k = ix2 k j := fun k =>
    funext fun d => match d with | ⟨0, _⟩ => rfl | ⟨1, _⟩ => rfl
  have hb : idx_main_v31 (idx_main_v32 (ix2 r j)) = ix1 j :=
    funext fun d => match d with | ⟨0, _⟩ => rfl
  have hsum : ∑ k : Fin 100, val_main_v29 (F := Ideal) x0 x1 x2 x3 x4 x5 x10 x11 x12 (lidx_main_v30 (ix2 r j) k) * x6 (ridx_main_v30 (ix2 r j) k)
      = ∑ k : Fin 100, aff (aff (input x0 x1 x10 x11 x12 r) (fun a j => x2 (ix2 a j)) (fun j => x3 (ix1 j)))
          (fun k j => x4 (ix2 k j)) (fun j => x5 (ix1 j)) k * x6 (ix2 k j) :=
    Finset.sum_congr rfl (fun k _ => by rw [hl k, hr k, layer2_eq])
  rw [val_main_v34_apply, val_main_v33_apply, val_main_v30_apply, val_main_v32_apply, val_main_v31_apply,
    val_main_call3_v0_apply, val_main_call3_cst_apply, hsum, hb]
  show max (_ + x7 (ix1 j)) (Ideal.ofBits .f32 0x00000000#32) = _
  rw [Ideal.ofBits_zero_f32]
  rfl

end Layers

/-- The reference's last stage is the specification's function of the thirteen arguments. -/
theorem result_eq (x0 : (⟨S500000x256, .f32⟩ : BufTy).Contents (Elt Ideal)) (x1 : (⟨S64, .f32⟩ : BufTy).Contents (Elt Ideal))
    (x2 : (⟨S64x100, .f32⟩ : BufTy).Contents (Elt Ideal)) (x3 : (⟨S100, .f32⟩ : BufTy).Contents (Elt Ideal))
    (x4 : (⟨S100x100, .f32⟩ : BufTy).Contents (Elt Ideal)) (x5 : (⟨S100, .f32⟩ : BufTy).Contents (Elt Ideal))
    (x6 : (⟨S100x100, .f32⟩ : BufTy).Contents (Elt Ideal)) (x7 : (⟨S100, .f32⟩ : BufTy).Contents (Elt Ideal))
    (x8 : (⟨S100x1, .f32⟩ : BufTy).Contents (Elt Ideal)) (x9 : (⟨S1, .f32⟩ : BufTy).Contents (Elt Ideal))
    (x10 x11 x12 : (⟨S64, .i32⟩ : BufTy).Contents (Elt Ideal)) :
    val_main_v38 (F := Ideal) x0 x1 x2 x3 x4 x5 x6 x7 x8 x9 x10 x11 x12 = G x0 x1 x2 x3 x4 x5 x6 x7 x8 x9 x10 x11 x12 := by
  funext i
  obtain ⟨r, q, rfl⟩ : ∃ (r : Fin 500000) (q : Fin 1), i = ix2 r q := ⟨i 0, i 1, eq_ix2 i⟩
  have hq : q = 0 := Subsingleton.elim _ _
  subst hq
  -- STAGE 6. The last layer: the sum over the hidden units plus the one bias
  have hl : ∀ k : Fin 100, lidx_main_v35 (ix2 r (0 : Fin 1)) k = ix2 r k := fun k =>
    funext fun d => match d with | ⟨0, _⟩ => rfl | ⟨1, _⟩ => rfl
  have hr : ∀ k : Fin 100, ridx_main_v35 (ix2 r (0 : Fin 1)) k = ix2 k (0 : Fin 1) := fun k =>
    funext fun d => match d with | ⟨0, _⟩ => rfl | ⟨1, _⟩ => rfl
  have hb : idx_main_v36 (idx_main_v37 (ix2 r (0 : Fin 1))) = ix1 (0 : Fin 1) :=
    funext fun d => match d with | ⟨0, _⟩ => rfl
  have hsum : ∑ k : Fin 100, val_main_v34 (F := Ideal) x0 x1 x2 x3 x4 x5 x6 x7 x10 x11 x12 (lidx_main_v35 (ix2 r (0 : Fin 1)) k)
        * x8 (ridx_main_v35 (ix2 r (0 : Fin 1)) k)
      = ∑ k : Fin 100, aff (aff (aff (input x0 x1 x10 x11 x12 r) (fun a j => x2 (ix2 a j)) (fun j => x3 (ix1 j)))
          (fun k j => x4 (ix2 k j)) (fun j => x5 (ix1 j))) (fun k j => x6 (ix2 k j)) (fun j => x7 (ix1 j)) k * x8 (ix2 k (0 : Fin 1)) :=
    Finset.sum_congr rfl (fun k _ => by rw [hl k, hr k, layer3_eq])
  rw [val_main_v38_apply, val_main_v35_apply, val_main_v37_apply, val_main_v36_apply, hsum, hb]
  rfl

end Cert.ReferenceIdeal.RefValue

end
-- ==== Proof.lean ====
/-
  The certificate of a gated-gather perceptron. The reference selects 64 columns of each data row by a table of
  positions, scales them by per-edge gates and applies a perceptron 64 → 100 → 100 → 100 → 1. The kernel folds the
  selection and the gates into the first layer: on the host it builds the 256 × 100 matrix
  `M1 n h = ∑ a, ([pos a = n] · gate a) · W1 a h`, zero-pads every hidden width from 100 to 128, and the body runs the
  padded perceptron 256 → 128 → 128 → 128 → 1 on whole data rows, one block of 5000 rows per grid point.
  Over the extended reals the two agree row by row when the column positions are in range and the data, the edge
  weights and the first layer's weights are real numbers:
    * `∑ n, d n · (∑ a, ([pos a = n] · g a) · w a) = ∑ a, (d (pos a) · g a) · w a` — distribute the real `d n`,
      exchange the sums, keep the one term `n = pos a` (`Mlp.onehot_fuse`);
    * a padded weight row or column contributes `x · 0`, a padded hidden unit computes `max (0 + 0) 0 = 0`
      (`Mlp.aff_pad`, `Mlp.lin_pad`);
    * changes of float format are the identity, and a matrix-unit product into zeros is the host's contraction.
  The modules: `Mlp` and `Fuse` (the algebra), `Spec` and `SpecFacts` (the common function of the arguments),
  `InputFacts` (what the precondition gives), `LibContract`, `LibGather`, `LibPad` (operations read at an index),
  `KernelHost`, `KernelHostRead`, `BodyValue`, `KernelValue` (the kernel's result array), `RefValue` (the
  reference's).
-/
import proofs.«421247_j9603546873894_3_alg».proof.Defs
import proofs.«421247_j9603546873894_3_alg».proof.Proof.Gen.Kernel
import proofs.«421247_j9603546873894_3_alg».proof.Proof.Gen.Kernel.Skeleton
import proofs.«421247_j9603546873894_3_alg».proof.Proof.Gen.Kernel.Launch
import proofs.«421247_j9603546873894_3_alg».proof.Proof.Gen.Kernel.Points
import proofs.«421247_j9603546873894_3_alg».proof.Proof.Gen.Kernel.Frame
import proofs.«421247_j9603546873894_3_alg».proof.Proof.Gen.KernelIdeal
import proofs.«421247_j9603546873894_3_alg».proof.Proof.Gen.KernelIdeal.Skeleton
import proofs.«421247_j9603546873894_3_alg».proof.Proof.Gen.KernelIdeal.Launch
import proofs.«421247_j9603546873894_3_alg».proof.Proof.Gen.KernelIdeal.Points
import proofs.«421247_j9603546873894_3_alg».proof.Proof.Gen.KernelIdeal.Frame
import proofs.«421247_j9603546873894_3_alg».proof.Proof.Gen.ReferenceIdeal
import proofs.«421247_j9603546873894_3_alg».proof.Proof.Gen.Pre_finite_inputs
import proofs.«421247_j9603546873894_3_alg».proof.Proof.Gen.KernelIdeal.Value
import proofs.«421247_j9603546873894_3_alg».proof.Proof.Gen.ReferenceIdeal.Run
import proofs.«421247_j9603546873894_3_alg».proof.Proof.Gen.ReferenceIdeal.Read
import proofs.«421247_j9603546873894_3_alg».proof.Proof.KernelValue
import proofs.«421247_j9603546873894_3_alg».proof.Proof.RefValue
import Idealize.ShloMosaic.Adequacy
import Idealize.ShloMosaic.Init

noncomputable section

namespace Cert.Proof

open Idealize.ShloMosaic Idealize.SL.Sem

/-- The word-level kernel runs and leaves its arguments as they were: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a straight line of host operations: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the specification's function of the (agreeing) arguments in their result arrays. -/
theorem algebraic : Cert.algebraic_KernelIdeal_ReferenceIdeal := by
  intro m ρ m' ρ' hpre hagree
  refine ⟨fun c => Cert.KernelIdeal.RowValue.Gm m c, Cert.KernelIdeal.RowValue.run m ρ hpre, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12⟩ := hagree c
  rw [e0, e1, e2, e3, e4, e5, e6, e7, e8, e9, e10, e11, e12, Cert.ReferenceIdeal.Read.val_main_v38_eq]
  exact Cert.ReferenceIdeal.RefValue.result_eq _ _ _ _ _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
